-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x9 : Shape := ⟨2, ![100000, 9]⟩
abbrev S2x3200000 : Shape := ⟨2, ![2, 3200000]⟩
abbrev S3200000x4 : Shape := ⟨2, ![3200000, 4]⟩
abbrev S100000 : Shape := ⟨1, ![100000]⟩
abbrev S64 : Shape := ⟨1, ![64]⟩
abbrev S64x9 : Shape := ⟨2, ![64, 9]⟩
abbrev S64x64 : Shape := ⟨2, ![64, 64]⟩
abbrev S32x64 : Shape := ⟨2, ![32, 64]⟩
abbrev S32 : Shape := ⟨1, ![32]⟩
abbrev S1x32 : Shape := ⟨2, ![1, 32]⟩
abbrev S1 : Shape := ⟨1, ![1]⟩
abbrev S_ : Shape := ⟨0, ![]⟩

class Facts : Prop where
  bcast_S_S100000x9 : S_.BroadcastsInDim S100000x9 (![] : Fin 0 → Fin S100000x9.rank)
  reducesTo_S100000x9_S_d0_1 : S100000x9.ReducesTo [0, 1] S_
  h_S_ : 0 < S_.numel
  bcast_S_S3200000x4 : S_.BroadcastsInDim S3200000x4 (![] : Fin 0 → Fin S3200000x4.rank)
  reducesTo_S3200000x4_S_d0_1 : S3200000x4.ReducesTo [0, 1] S_
  bcast_S_S64 : S_.BroadcastsInDim S64 (![] : Fin 0 → Fin S64.rank)
  reducesTo_S64_S_d0 : S64.ReducesTo [0] S_
  bcast_S_S64x9 : S_.BroadcastsInDim S64x9 (![] : Fin 0 → Fin S64x9.rank)
  reducesTo_S64x9_S_d0_1 : S64x9.ReducesTo [0, 1] S_
  bcast_S_S64x64 : S_.BroadcastsInDim S64x64 (![] : Fin 0 → Fin S64x64.rank)
  reducesTo_S64x64_S_d0_1 : S64x64.ReducesTo [0, 1] S_
  bcast_S_S32x64 : S_.BroadcastsInDim S32x64 (![] : Fin 0 → Fin S32x64.rank)
  reducesTo_S32x64_S_d0_1 : S32x64.ReducesTo [0, 1] S_
  bcast_S_S32 : S_.BroadcastsInDim S32 (![] : Fin 0 → Fin S32.rank)
  reducesTo_S32_S_d0 : S32.ReducesTo [0] S_
  bcast_S_S1x32 : S_.BroadcastsInDim S1x32 (![] : Fin 0 → Fin S1x32.rank)
  reducesTo_S1x32_S_d0_1 : S1x32.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg13 : FVec F S1x32 .f32) (main_arg14 : FVec F S1 .f32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_v54 : FVec F S1x32 .f32 := Host.absf main_arg13
  let main_cst_20 : FVec F S_ .f32 := constant S_ .f32 0x7F800000#32
  let main_v55 : FVec F S1x32 .f32 := broadcastInDim S1x32 ![] bcast_S_S1x32 main_cst_20
  let main_v56 : IVec S1x32 1 := cmpf .olt main_v54 main_v55
  let main_c_21 : IVec S_ 1 := constantI S_ 1 1#1
  let main_v57 : IVec S_ 1 := (fun x v => Host.reduce IntOp.andi x v reducesTo_S1x32_S_d0_1 h_S_) main_v56 main_c_21
  let main_v58 : IVec S_ 1 := andi main_v53 main_v57
  let main_v59 : FVec F S1 .f32 := Host.absf main_arg14
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg9 : FVec F S64 .f32) (main_arg10 : FVec F S64x64 .f32) (main_arg11 : FVec F S32x64 .f32) (main_arg12 : FVec F S32 .f32) (main_arg13 : FVec F S1x32 .f32) (main_arg14 : FVec F S1 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg10
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S32x64 .f32 := Host.absf main_arg11
  let main_cst_16 : FVec F S_ .f32 := constant S_ .f32 0x7F800000#32
  let main_v45 : FVec F S32x64 .f32 := broadcastInDim S32x64 ![] bcast_S_S32x64 main_cst_16
  let main_v46 : IVec S32x64 1 := cmpf .olt main_v44 main_v45
  let main_c_17 : IVec S_ 1 := constantI S_ 1 1#1
  let main_v47 : IVec S_ 1 := (fun x v => Host.reduce IntOp.andi x v reducesTo_S32x64_S_d0_1 h_S_) main_v46 main_c_17
  let main_v48 : IVec S_ 1 := andi main_v43 main_v47
  let main_v49 : FVec F S32 .f32 := Host.absf main_arg12
  let main_cst_18 : FVec F S_ .f32 := constant S_ .f32 0x7F800000#32
  let main_v50 : FVec F S32 .f32 := broadcastInDim S32 ![] bcast_S_S32 main_cst_18
  fn_part3 (F := F) main_arg13 main_arg14 main_v48 main_v49 main_v50

def fn_part1 {F : FTy → Type} [FloatOps F] (main_arg6 : FVec F S64 .f32) (main_arg7 : FVec F S64x9 .f32) (main_arg8 : FVec F S64x64 .f32) (main_arg9 : FVec F S64 .f32) (main_arg10 : FVec F S64x64 .f32) (main_arg11 : FVec F S32x64 .f32) (main_arg12 : FVec F S32 .f32) (main_arg13 : FVec F S1x32 .f32) (main_arg14 : FVec F S1 .f32) (main_v13 : IVec S_ 1) (main_v16 : IVec S64x9 1) : IVec S_ 1 :=
  let main_c_5 : IVec S_ 1 := constantI S_ 1 1#1
  let main_v17 : IVec S_ 1 := (fun x v => Host.reduce IntOp.andi x v reducesTo_S64x9_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x9 .f32 := Host.absf main_arg7
  let main_cst_8 : FVec F S_ .f32 := constant S_ .f32 0x7F800000#32
  let main_v25 : FVec F S64x9 .f32 := broadcastInDim S64x9 ![] bcast_S_S64x9 main_cst_8
  let main_v26 : IVec S64x9 1 := cmpf .olt main_v24 main_v25
  let main_c_9 : IVec S_ 1 := constantI S_ 1 1#1
  let main_v27 : IVec S_ 1 := (fun x v => Host.reduce IntOp.andi x v reducesTo_S64x9_S_d0_1 h_S_) main_v26 main_c_9
  let main_v28 : IVec S_ 1 := andi main_v23 main_v27
  let main_v29 : FVec F S64x64 .f32 := Host.absf main_arg8
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S100000x9 .f32) (main_arg1 : IVec S2x3200000 32) (main_arg2 : FVec F S3200000x4 .f32) (main_arg3 : IVec S100000 32) (main_arg4 : FVec F S64 .f32) (main_arg5 : FVec F S64x9 .f32) (main_arg6 : FVec F S64 .f32) (main_arg7 : FVec F S64x9 .f32) (main_arg8 : FVec F S64x64 .f32) (main_arg9 : FVec F S64 .f32) (main_arg10 : FVec F S64x64 .f32) (main_arg11 : FVec F S32x64 .f32) (main_arg12 : FVec F S32 .f32) (main_arg13 : FVec F S1x32 .f32) (main_arg14 : FVec F S1 .f32) : IVec S_ 1 :=
  let main_v0 : FVec F S100000x9 .f32 := Host.absf main_arg0
  let main_cst : FVec F S_ .f32 := constant S_ .f32 0x7F800000#32
  let main_v1 : FVec F S100000x9 .f32 := broadcastInDim S100000x9 ![] bcast_S_S100000x9 main_cst
  let main_v2 : IVec S100000x9 1 := cmpf .olt main_v0 main_v1
  let main_c : IVec S_ 1 := constantI S_ 1 1#1
  let main_v3 : IVec S_ 1 := (fun x v => Host.reduce IntOp.andi x v reducesTo_S100000x9_S_d0_1 h_S_) main_v2 main_c
  let main_v4 : FVec F S3200000x4 .f32 := Host.absf main_arg2
  let main_cst_0 : FVec F S_ .f32 := constant S_ .f32 0x7F800000#32
  let main_v5 : FVec F S3200000x4 .f32 := broadcastInDim S3200000x4 ![] bcast_S_S3200000x4 main_cst_0
  let main_v6 : IVec S3200000x4 1 := cmpf .olt main_v4 main_v5
  let main_c_1 : IVec S_ 1 := constantI S_ 1 1#1
  let main_v7 : IVec S_ 1 := (fun x v => Host.reduce IntOp.andi x v reducesTo_S3200000x4_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x9 .f32 := Host.absf main_arg5
  let main_cst_4 : FVec F S_ .f32 := constant S_ .f32 0x7F800000#32
  let main_v15 : FVec F S64x9 .f32 := broadcastInDim S64x9 ![] bcast_S_S64x9 main_cst_4
  let main_v16 : IVec S64x9 1 := cmpf .olt main_v14 main_v15
  fn_part1 (F := F) main_arg6 main_arg7 main_arg8 main_arg9 main_arg10 main_arg11 main_arg12 main_arg13 main_arg14 main_v13 main_v16
-- ==== Kernel.lean ====
abbrev S100000x9 : Shape := ⟨2, ![100000, 9]⟩
abbrev S2x3200000 : Shape := ⟨2, ![2, 3200000]⟩
abbrev S3200000x4 : Shape := ⟨2, ![3200000, 4]⟩
abbrev S100000 : Shape := ⟨1, ![100000]⟩
abbrev S64 : Shape := ⟨1, ![64]⟩
abbrev S64x9 : Shape := ⟨2, ![64, 9]⟩
abbrev S64x64 : Shape := ⟨2, ![64, 64]⟩
abbrev S32x64 : Shape := ⟨2, ![32, 64]⟩
abbrev S32 : Shape := ⟨1, ![32]⟩
abbrev S1x32 : Shape := ⟨2, ![1, 32]⟩
abbrev S1 : Shape := ⟨1, ![1]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S3200000x9 : Shape := ⟨2, ![3200000, 9]⟩
abbrev S3200000x10 : Shape := ⟨2, ![3200000, 10]⟩
abbrev S100000x10 : Shape := ⟨2, ![100000, 10]⟩
abbrev S100000x1 : Shape := ⟨2, ![100000, 1]⟩
abbrev S9x64 : Shape := ⟨2, ![9, 64]⟩
abbrev S1x64 : Shape := ⟨2, ![1, 64]⟩
abbrev S100000x64 : Shape := ⟨2, ![100000, 64]⟩
abbrev S5000x10 : Shape := ⟨2, ![5000, 10]⟩
abbrev S5000x9 : Shape := ⟨2, ![5000, 9]⟩
abbrev S5000x64 : Shape := ⟨2, ![5000, 64]⟩
abbrev S5000x1 : Shape := ⟨2, ![5000, 1]⟩
abbrev S3200000x64 : Shape := ⟨2, ![3200000, 64]⟩
abbrev S100000x65 : Shape := ⟨2, ![100000, 65]⟩
abbrev S64x32 : Shape := ⟨2, ![64, 32]⟩
abbrev S32x1 : Shape := ⟨2, ![32, 1]⟩
abbrev S1x1 : Shape := ⟨2, ![1, 1]⟩
abbrev S5000x65 : Shape := ⟨2, ![5000, 65]⟩
abbrev S5000x32 : Shape := ⟨2, ![5000, 32]⟩

abbrev nBuf : Space → Nat
  | .hbm => 84
  | .vmem => 22
  | .smem => 0
  | _ => 0

abbrev bufTy : (tb : Table) → Fin (tcTables nBuf tb) → BufTy
  | .hbm, ⟨0, _⟩ => ⟨S100000x9, .f32⟩
  | .hbm, ⟨1, _⟩ => ⟨S2x3200000, .i32⟩
  | .hbm, ⟨2, _⟩ => ⟨S3200000x4, .f32⟩
  | .hbm, ⟨3, _⟩ => ⟨S100000, .i32⟩
  | .hbm, ⟨4, _⟩ => ⟨S64, .f32⟩
  | .hbm, ⟨5, _⟩ => ⟨S64x9, .f32⟩
  | .hbm, ⟨6, _⟩ => ⟨S64, .f32⟩
  | .hbm, ⟨7, _⟩ => ⟨S64x9, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S32x64, .f32⟩
  | .hbm, ⟨12, _⟩ => ⟨S32, .f32⟩
  | .hbm, ⟨13, _⟩ => ⟨S1x32, .f32⟩
  | .hbm, ⟨14, _⟩ => ⟨S1, .f32⟩
  | .hbm, ⟨15, _⟩ => ⟨S1x3200000, .i32⟩
  | .hbm, ⟨16, _⟩ => ⟨S3200000, .i32⟩
  | .hbm, ⟨17, _⟩ => ⟨S1x3200000, .i32⟩
  | .hbm, ⟨18, _⟩ => ⟨S3200000, .i32⟩
  | .hbm, ⟨19, _⟩ => ⟨S_, .f32⟩
  | .hbm, ⟨20, _⟩ => ⟨S3200000x1, .f32⟩
  | .hbm, ⟨21, _⟩ => ⟨S_, .i32⟩
  | .hbm, ⟨22, _⟩ => ⟨S3200000, .i32⟩
  | .hbm, ⟨23, _⟩ => ⟨S3200000, .i1⟩
  | .hbm, ⟨24, _⟩ => ⟨S_, .i32⟩
  | .hbm, ⟨25, _⟩ => ⟨S3200000, .i32⟩
  | .hbm, ⟨26, _⟩ => ⟨S3200000, .i32⟩
  | .hbm, ⟨27, _⟩ => ⟨S3200000, .i32⟩
  | .hbm, ⟨28, _⟩ => ⟨S3200000x1, .i32⟩
  | .hbm, ⟨29, _⟩ => ⟨S3200000x9, .f32⟩
  | .hbm, ⟨30, _⟩ => ⟨S3200000x10, .f32⟩
  | .hbm, ⟨31, _⟩ => ⟨S_, .f32⟩
  | .hbm, ⟨32, _⟩ => ⟨S100000x10, .f32⟩
  | .hbm, ⟨33, _⟩ => ⟨S3200000x1, .i32⟩
  | .hbm, ⟨34, _⟩ => ⟨S100000x10, .f32⟩
  | .hbm, ⟨35, _⟩ => ⟨S100000x1, .f32⟩
  | .hbm, ⟨36, _⟩ => ⟨S9x64, .f32⟩
  | .hbm, ⟨37, _⟩ => ⟨S9x64, .f32⟩
  | .hbm, ⟨38, _⟩ => ⟨S1x64, .f32⟩
  | .hbm, ⟨39, _⟩ => ⟨S100000x64, .f32⟩
  | .hbm, ⟨40, _⟩ => ⟨S_, .i32⟩
  | .hbm, ⟨41, _⟩ => ⟨S3200000, .i32⟩
  | .hbm, ⟨42, _⟩ => ⟨S3200000, .i1⟩
  | .hbm, ⟨43, _⟩ => ⟨S_, .i32⟩
  | .hbm, ⟨44, _⟩ => ⟨S3200000, .i32⟩
  | .hbm, ⟨45, _⟩ => ⟨S3200000, .i32⟩
  | .hbm, ⟨46, _⟩ => ⟨S3200000, .i32⟩
  | .hbm, ⟨47, _⟩ => ⟨S3200000x1, .i32⟩
  | .hbm, ⟨48, _⟩ => ⟨S3200000x64, .f32⟩
  | .hbm, ⟨49, _⟩ => ⟨S_, .f32⟩
  | .hbm, ⟨50, _⟩ => ⟨S100000x64, .f32⟩
  | .hbm, ⟨51, _⟩ => ⟨S3200000x1, .i32⟩
  | .hbm, ⟨52, _⟩ => ⟨S100000x64, .f32⟩
  | .hbm, ⟨53, _⟩ => ⟨S100000x65, .f32⟩
  | .hbm, ⟨54, _⟩ => ⟨S64x64, .f32⟩
  | .hbm, ⟨55, _⟩ => ⟨S64x64, .f32⟩
  | .hbm, ⟨56, _⟩ => ⟨S64x32, .f32⟩
  | .hbm, ⟨57, _⟩ => ⟨S32x1, .f32⟩
  | .hbm, ⟨58, _⟩ => ⟨S1x64, .f32⟩
  | .hbm, ⟨59, _⟩ => ⟨S1x32, .f32⟩
  | .hbm, ⟨60, _⟩ => ⟨S1x1, .f32⟩
  | .hbm, ⟨61, _⟩ => ⟨S100000x1, .f32⟩
  | .hbm, ⟨62, _⟩ => ⟨S100000, .f32⟩
  | .hbm, ⟨63, _⟩ => ⟨S_, .f32⟩
  | .hbm, ⟨64, _⟩ => ⟨S64, .f32⟩
  | .hbm, ⟨65, _⟩ => ⟨S100000x1, .i32⟩
  | .hbm, ⟨66, _⟩ => ⟨S64, .f32⟩
  | .hbm, ⟨67, _⟩ => ⟨S_, .f32⟩
  | .hbm, ⟨68, _⟩ => ⟨S64, .f32⟩
  | .hbm, ⟨69, _⟩ => ⟨S64, .f32⟩
  | .hbm, ⟨70, _⟩ => ⟨S64, .f32⟩
  | .hbm, ⟨71, _⟩ => ⟨S_, .f32⟩
  | .hbm, ⟨72, _⟩ => ⟨S64, .f32⟩
  | .hbm, ⟨73, _⟩ => ⟨S64, .f32⟩
  | .hbm, ⟨74, _⟩ => ⟨S_, .i32⟩
  | .hbm, ⟨75, _⟩ => ⟨S100000, .i32⟩
  | .hbm, ⟨76, _⟩ => ⟨S100000, .i1⟩
  | .hbm, ⟨77, _⟩ => ⟨S_, .i32⟩
  | .hbm, ⟨78, _⟩ => ⟨S100000, .i32⟩
  | .hbm, ⟨79, _⟩ => ⟨S100000, .i32⟩
  | .hbm, ⟨80, _⟩ => ⟨S100000, .i32⟩
  | .hbm, ⟨81, _⟩ => ⟨S100000x1, .i32⟩
  | .hbm, ⟨82, _⟩ => ⟨S100000, .f32⟩
  | .hbm, ⟨83, _⟩ => ⟨S100000, .f32⟩
  | .local _ .vmem, ⟨0, _⟩ => ⟨S5000x10, .f32⟩
  | .local _ .vmem, ⟨1, _⟩ => ⟨S5000x10, .f32⟩
  | .local _ .vmem, ⟨2, _⟩ => ⟨S5000x9, .f32⟩
  | .local _ .vmem, ⟨3, _⟩ => ⟨S5000x9, .f32⟩
  | .local _ .vmem, ⟨4, _⟩ => ⟨S9x64, .f32⟩
  | .local _ .vmem, ⟨5, _⟩ => ⟨S1x64, .f32⟩
  | .local _ .vmem, ⟨6, _⟩ => ⟨S9x64, .f32⟩
  | .local _ .vmem, ⟨7, _⟩ => ⟨S5000x64, .f32⟩
  | .local _ .vmem, ⟨8, _⟩ => ⟨S5000x64, .f32⟩
  | .local _ .vmem, ⟨9, _⟩ => ⟨S5000x65, .f32⟩
  | .local _ .vmem, ⟨10, _⟩ => ⟨S5000x65, .f32⟩
  | .local _ .vmem, ⟨11, _⟩ => ⟨S5000x64, .f32⟩
  | .local _ .vmem, ⟨12, _⟩ => ⟨S5000x64, .f32⟩
  | .local _ .vmem, ⟨13, _⟩ => ⟨S64x64, .f32⟩
  | .local _ .vmem, ⟨14, _⟩ => ⟨S1x64, .f32⟩
  | .local _ .vmem, ⟨15, _⟩ => ⟨S64x64, .f32⟩
  | .local _ .vmem, ⟨16, _⟩ => ⟨S64x32, .f32⟩
  | .local _ .vmem, ⟨17, _⟩ => ⟨S1x32, .f32⟩
  | .local _ .vmem, ⟨18, _⟩ => ⟨S32x1, .f32⟩
  | .local _ .vmem, ⟨19, _⟩ => ⟨S1x1, .f32⟩
  | .local _ .vmem, ⟨20, _⟩ => ⟨S5000x1, .f32⟩
  | .local _ .vmem, ⟨21, _⟩ => ⟨S5000x1, .f32⟩
  | _, _ => ⟨S100000x9, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_c : Ref sig .tc := ⟨.hbm, 21, rfl⟩
abbrev main_v5 : Ref sig .tc := ⟨.hbm, 22, rfl⟩
abbrev main_v6 : Ref sig .tc := ⟨.hbm, 23, rfl⟩
abbrev main_c_0 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst_1 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_c_2 : Ref sig .tc := ⟨.hbm, 40, rfl⟩
abbrev main_v21 : Ref sig .tc := ⟨.hbm, 41, rfl⟩
abbrev main_v22 : Ref sig .tc := ⟨.hbm, 42, rfl⟩
abbrev main_c_3 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_4 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_5 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_6 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_7 : Ref sig .tc := ⟨.hbm, 71, rfl⟩
abbrev main_v47 : Ref sig .tc := ⟨.hbm, 72, rfl⟩
abbrev main_v48 : Ref sig .tc := ⟨.hbm, 73, rfl⟩
abbrev main_c_8 : Ref sig .tc := ⟨.hbm, 74, rfl⟩
abbrev main_v49 : Ref sig .tc := ⟨.hbm, 75, rfl⟩
abbrev main_v50 : Ref sig .tc := ⟨.hbm, 76, rfl⟩
abbrev main_c_9 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg8_0 : Ref sig .tc := ⟨.vmem, 19, rfl⟩
abbrev cc1_stg9_0 : Ref sig .tc := ⟨.vmem, 20, rfl⟩
abbrev cc1_stg9_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem8_0 : DmaSem sig := 19
abbrev cc1_sem9_0 : DmaSem sig := 20
abbrev cc1_sem9_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x10 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x9 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S9x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S9x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x65 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x32 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S32x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S5000x1 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000x1 : S_.BroadcastsInDim S3200000x1 (![] : Fin 0 → Fin S3200000x1.rank)
  bcast_S_S3200000 : S_.BroadcastsInDim S3200000 (![] : Fin 0 → Fin S3200000.rank)
  bcast_S3200000_S3200000x1_0 : S3200000.BroadcastsInDim S3200000x1 (![0] : Fin 1 → Fin S3200000x1.rank)
  concatenates_S3200000x9_S3200000x1_S3200000x10_d1 : Shape.Concatenates [S3200000x9, S3200000x1] S3200000x10 1
  bcast_S_S100000x10 : S_.BroadcastsInDim S100000x10 (![] : Fin 0 → Fin S100000x10.rank)
  slices_S100000x10_S100000x1_0_9 : S100000x10.Slices ![0, 9] S100000x1
  transposes_S64x9_S9x64_1_0 : S64x9.Transposes [1, 0] S9x64
  shapeCasts_S64_S1x64 : S64.ShapeCasts S1x64
  inb_S5000x10_S5000x9_0_0 : ∀ a, (![0, 0] : Fin 2 → Nat) a + S5000x9.size a ≤ S5000x10.size a
  h_S5000x9 : 0 < S5000x9.numel
  shapeCasts_S5000x9_S5000x9 : S5000x9.ShapeCasts S5000x9
  inb_S5000x10_S5000x1_0_9 : ∀ a, (![0, 9] : Fin 2 → Nat) a + S5000x1.size a ≤ S5000x10.size a
  h_S5000x1 : 0 < S5000x1.numel
  shapeCasts_S5000x1_S5000x1 : S5000x1.ShapeCasts S5000x1
  broadcasts_S5000x1_S5000x9 : S5000x1.Broadcasts S5000x9
  bitsLt_bf16_f32 : FTy.bits .bf16 < FTy.bits .f32
  inb_S5000x9_S5000x9_0_0 : ∀ a, (![0, 0] : Fin 2 → Nat) a + S5000x9.size a ≤ S5000x9.size a
  inb_S9x64_S9x64_0_0 : ∀ a, (![0, 0] : Fin 2 → Nat) a + S9x64.size a ≤ S9x64.size a
  h_S9x64 : 0 < S9x64.numel
  shapeCasts_S9x64_S9x64 : S9x64.ShapeCasts S9x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  concatenates_S100000x64_S100000x1_S100000x65_d1 : Shape.Concatenates [S100000x64, S100000x1] S100000x65 1
  transposes_S64x64_S64x64_1_0 : S64x64.Transposes [1, 0] S64x64
  transposes_S32x64_S64x32_1_0 : S32x64.Transposes [1, 0] S64x32
  transposes_S1x32_S32x1_1_0 : S1x32.Transposes [1, 0] S32x1
  shapeCasts_S32_S1x32 : S32.ShapeCasts S1x32
  shapeCasts_S1_S1x1 : S1.ShapeCasts S1x1
  inb_S5000x65_S5000x64_0_0 : ∀ a, (![0, 0] : Fin 2 → Nat) a + S5000x64.size a ≤ S5000x65.size a
  shapeCasts_S5000x64_S5000x64 : S5000x64.ShapeCasts S5000x64
  inb_S5000x65_S5000x1_0_64 : ∀ a, (![0, 64] : Fin 2 → Nat) a + S5000x1.size a ≤ S5000x65.size a
  broadcasts_S5000x1_S5000x64 : S5000x1.Broadcasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S32x1_S32x1_0_0 : ∀ a, (![0, 0] : Fin 2 → Nat) a + S32x1.size a ≤ S32x1.size a
  h_S32x1 : 0 < S32x1.numel
  shapeCasts_S32x1_S32x1 : S32x1.ShapeCasts S32x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  shapeCasts_S100000x1_S100000 : S100000x1.ShapeCasts S100000
  bcast_S_S64 : S_.BroadcastsInDim S64 (![] : Fin 0 → Fin S64.rank)
  bcast_S100000_S100000x1_0 : S100000.BroadcastsInDim S100000x1 (![0] : Fin 1 → Fin S100000x1.rank)
  bcast_S_S100000 : S_.BroadcastsInDim S100000 (![] : Fin 0 → Fin S100000.rank)
  gather_S100000x9_S3200000x1_S3200000x9_1_0_n_n_0_1_19_wf : GatherDims.WF S100000x9 S3200000x1 S3200000x9 [1] [0] [] [0] [] 1 ![1, 9]
  scatter_S100000x10_S3200000x1_S3200000x10_1_0_0_1_wf : ScatterDims.WF S100000x10 S3200000x1 S3200000x10 [1] [0] [0] 1
  dot_S5000x9_S9x64_S5000x64_1_0_0_1_n_n_wf : DotDims.WF S5000x9 S9x64 S5000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S5000x64_S64x64_S5000x64_1_0_0_1_n_n_wf : DotDims.WF S5000x64 S64x64 S5000x64 [1] [0] [0] [1] [] []
  dot_S5000x64_S64x32_S5000x32_1_0_0_1_n_n_wf : DotDims.WF S5000x64 S64x32 S5000x32 [1] [0] [0] [1] [] []
  dot_S5000x32_S32x1_S5000x1_1_0_0_1_n_n_wf : DotDims.WF S5000x32 S32x1 S5000x1 [1] [0] [0] [1] [] []
  scatter_S64_S100000x1_S100000_n_0_0_1_wf : ScatterDims.WF S64 S100000x1 S100000 [] [0] [0] 1
  gather_S64_S100000x1_S100000_n_0_n_n_0_1_1_wf : GatherDims.WF S64 S100000x1 S100000 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x10.size a ≤ S100000x10.size a
  hwx0_0 : ∀ i : grid0.Coords, EltTy.bits .f32 = 32 ∨ (Rect.block (s := S100000x10) S5000x10.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x9.size a ≤ S100000x9.size a
  hwx0_1 : ∀ i : grid0.Coords, EltTy.bits .f32 = 32 ∨ (Rect.block (s := S100000x9) S5000x9.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S9x64.size a ≤ S9x64.size a
  hwx0_2 : ∀ i : grid0.Coords, EltTy.bits .f32 = 32 ∨ (Rect.block (s := S9x64) S9x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S9x64.size a ≤ S9x64.size a
  hwx0_4 : ∀ i : grid0.Coords, EltTy.bits .f32 = 32 ∨ (Rect.block (s := S9x64) S9x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x65.size a ≤ S100000x65.size a
  hwx1_0 : ∀ i : grid1.Coords, EltTy.bits .f32 = 32 ∨ (Rect.block (s := S100000x65) S5000x65.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x32.size a ≤ S64x32.size a
  hwx1_5 : ∀ i : grid1.Coords, EltTy.bits .f32 = 32 ∨ (Rect.block (s := S64x32) S64x32.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x32.size a ≤ S1x32.size a
  hwx1_6 : ∀ i : grid1.Coords, EltTy.bits .f32 = 32 ∨ (Rect.block (s := S1x32) S1x32.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S32x1.size a ≤ S32x1.size a
  hwx1_7 : ∀ i : grid1.Coords, EltTy.bits .f32 = 32 ∨ (Rect.block (s := S32x1) S32x1.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x1.size a ≤ S1x1.size a
  hwx1_8 : ∀ i : grid1.Coords, EltTy.bits .f32 = 32 ∨ (Rect.block (s := S1x1) S1x1.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S5000x1.size a ≤ S100000x1.size a
  hwx1_9 : ∀ i : grid1.Coords, EltTy.bits .f32 = 32 ∨ (Rect.block (s := S100000x1) S5000x1.size (cc1_transform_9 i) (hinb1_9 i)).WholeWords (EltTy.packing .f32)

variable [Facts₀]

def gather_S100000x9_S3200000x1_S3200000x9_1_0_n_n_0_1_19 : GatherDims S100000x9 S3200000x1 S3200000x9 where
  offsetDims := [1]
  collapsedSliceDims := [0]
  operandBatchingDims := []
  startIndicesBatchingDims := []
  startIndexMap := [0]
  indexVectorDim := 1
  sliceSizes := ![1, 9]
  wf := gather_S100000x9_S3200000x1_S3200000x9_1_0_n_n_0_1_19_wf
def scatter_S100000x10_S3200000x1_S3200000x10_1_0_0_1 : ScatterDims S100000x10 S3200000x1 S3200000x10 where
  updateWindowDims := [1]
  insertedWindowDims := [0]
  scatterDimsToOperandDims := [0]
  indexVectorDim := 1
  wf := scatter_S100000x10_S3200000x1_S3200000x10_1_0_0_1_wf
def dot_S5000x9_S9x64_S5000x64_1_0_0_1_n_n : DotDims S5000x9 S9x64 S5000x64 where
  lhsContracting := [1]
  rhsContracting := [0]
  lhsNonContracting := [0]
  rhsNonContracting := [1]
  lhsBatch := []
  rhsBatch := []
  wf := dot_S5000x9_S9x64_S5000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def dot_S5000x32_S32x1_S5000x1_1_0_0_1_n_n : DotDims S5000x32 S32x1 S5000x1 where
  lhsContracting := [1]
  rhsContracting := [0]
  lhsNonContracting := [0]
  rhsNonContracting := [1]
  lhsBatch := []
  rhsBatch := []
  wf := dot_S5000x32_S32x1_S5000x1_1_0_0_1_n_n_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def gather_S64_S100000x1_S100000_n_0_n_n_0_1_1 : GatherDims S64 S100000x1 S100000 where
  offsetDims := []
  collapsedSliceDims := [0]
  operandBatchingDims := []
  startIndicesBatchingDims := []
  startIndexMap := [0]
  indexVectorDim := 1
  sliceSizes := ![1]
  wf := gather_S64_S100000x1_S100000_n_0_n_n_0_1_1_wf

abbrev win0_0 : Pipeline.Window sig grid0 :=
  Pipeline.Window.ofSpec (Memref.whole main_v15) S5000x10.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x9.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S9x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18) S9x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v31) S5000x65.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v32) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v36) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v33) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v34) S64x32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v37) S1x32.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v35) S32x1.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v38) S1x1.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v39) S5000x1.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S100000x9 : Shape := ⟨2, ![100000, 9]⟩
abbrev S2x3200000 : Shape := ⟨2, ![2, 3200000]⟩
abbrev S3200000x4 : Shape := ⟨2, ![3200000, 4]⟩
abbrev S100000 : Shape := ⟨1, ![100000]⟩
abbrev S64 : Shape := ⟨1, ![64]⟩
abbrev S64x9 : Shape := ⟨2, ![64, 9]⟩
abbrev S64x64 : Shape := ⟨2, ![64, 64]⟩
abbrev S32x64 : Shape := ⟨2, ![32, 64]⟩
abbrev S32 : Shape := ⟨1, ![32]⟩
abbrev S1x32 : Shape := ⟨2, ![1, 32]⟩
abbrev S1 : Shape := ⟨1, ![1]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S3200000x9 : Shape := ⟨2, ![3200000, 9]⟩
abbrev S100000x1 : Shape := ⟨2, ![100000, 1]⟩
abbrev S9x64 : Shape := ⟨2, ![9, 64]⟩
abbrev S100000x64 : Shape := ⟨2, ![100000, 64]⟩
abbrev S1x64 : Shape := ⟨2, ![1, 64]⟩
abbrev S3200000x64 : Shape := ⟨2, ![3200000, 64]⟩
abbrev S64x32 : Shape := ⟨2, ![64, 32]⟩
abbrev S100000x32 : Shape := ⟨2, ![100000, 32]⟩
abbrev S32x1 : Shape := ⟨2, ![32, 1]⟩
abbrev S1x1 : Shape := ⟨2, ![1, 1]⟩

abbrev nBuf : Space → Nat
  | .hbm => 140
  | .vmem => 0
  | .smem => 0
  | _ => 0

abbrev hbmTy0_0 (i : Nat) : BufTy := match i % 128 with
  | 0 => ⟨S100000x9, .f32⟩
  | 1 => ⟨S2x3200000, .i32⟩
  | 2 => ⟨S3200000x4, .f32⟩
  | 3 => ⟨S100000, .i32⟩
  | 4 => ⟨S64, .f32⟩
  | 5 => ⟨S64x9, .f32⟩
  | 6 => ⟨S64, .f32⟩
  | 7 => ⟨S64x9, .f32⟩
  | 8 => ⟨S64x64, .f32⟩
  | 9 => ⟨S64, .f32⟩
  | 10 => ⟨S64x64, .f32⟩
  | 11 => ⟨S32x64, .f32⟩
  | 12 => ⟨S32, .f32⟩
  | 13 => ⟨S1x32, .f32⟩
  | 14 => ⟨S1, .f32⟩
  | 15 => ⟨S1x3200000, .i32⟩
  | 16 => ⟨S3200000, .i32⟩
  | 17 => ⟨S1x3200000, .i32⟩
  | 18 => ⟨S3200000, .i32⟩
  | 19 => ⟨S_, .i32⟩
  | 20 => ⟨S3200000, .i32⟩
  | 21 => ⟨S3200000, .i1⟩
  | 22 => ⟨S_, .i32⟩
  | 23 => ⟨S3200000, .i32⟩
  | 24 => ⟨S3200000, .i32⟩
  | 25 => ⟨S3200000, .i32⟩
  | 26 => ⟨S3200000x1, .i32⟩
  | 27 => ⟨S3200000x9, .f32⟩
  | 28 => ⟨S_, .f32⟩
  | 29 => ⟨S100000x9, .f32⟩
  | 30 => ⟨S3200000x1, .i32⟩
  | 31 => ⟨S100000x9, .f32⟩
  | 32 => ⟨S_, .f32⟩
  | 33 => ⟨S3200000, .f32⟩
  | 34 => ⟨S_, .f32⟩
  | 35 => ⟨S100000, .f32⟩
  | 36 => ⟨S3200000x1, .i32⟩
  | 37 => ⟨S100000, .f32⟩
  | 38 => ⟨S_, .f32⟩
  | 39 => ⟨S100000, .f32⟩
  | 40 => ⟨S100000, .f32⟩
  | 41 => ⟨S100000x1, .f32⟩
  | 42 => ⟨S100000x9, .f32⟩
  | 43 => ⟨S100000x9, .f32⟩
  | 44 => ⟨S9x64, .f32⟩
  | 45 => ⟨S100000x64, .f32⟩
  | 46 => ⟨S1x64, .f32⟩
  | 47 => ⟨S100000x64, .f32⟩
  | 48 => ⟨S100000x64, .f32⟩
  | 49 => ⟨S9x64, .f32⟩
  | 50 => ⟨S100000x64, .f32⟩
  | 51 => ⟨S100000x64, .f32⟩
  | 52 => ⟨S_, .f32⟩
  | 53 => ⟨S100000x64, .f32⟩
  | 54 => ⟨S100000x64, .f32⟩
  | 55 => ⟨S_, .i32⟩
  | 56 => ⟨S3200000, .i32⟩
  | 57 => ⟨S3200000, .i1⟩
  | 58 => ⟨S_, .i32⟩
  | 59 => ⟨S3200000, .i32⟩
  | 60 => ⟨S3200000, .i32⟩
  | 61 => ⟨S3200000, .i32⟩
  | 62 => ⟨S3200000x1, .i32⟩
  | 63 => ⟨S3200000x64, .f32⟩
  | 64 => ⟨S_, .f32⟩
  | 65 => ⟨S100000x64, .f32⟩
  | 66 => ⟨S3200000x1, .i32⟩
  | 67 => ⟨S100000x64, .f32⟩
  | 68 => ⟨S_, .f32⟩
  | 69 => ⟨S3200000, .f32⟩
  | 70 => ⟨S_, .f32⟩
  | 71 => ⟨S100000, .f32⟩
  | 72 => ⟨S3200000x1, .i32⟩
  | 73 => ⟨S100000, .f32⟩
  | 74 => ⟨S_, .f32⟩
  | 75 => ⟨S100000, .f32⟩
  | 76 => ⟨S100000, .f32⟩
  | 77 => ⟨S100000x1, .f32⟩
  | 78 => ⟨S100000x64, .f32⟩
  | 79 => ⟨S100000x64, .f32⟩
  | 80 => ⟨S64x64, .f32⟩
  | 81 => ⟨S100000x64, .f32⟩
  | 82 => ⟨S1x64, .f32⟩
  | 83 => ⟨S100000x64, .f32⟩
  | 84 => ⟨S100000x64, .f32⟩
  | 85 => ⟨S64x64, .f32⟩
  | 86 => ⟨S100000x64, .f32⟩
  | 87 => ⟨S100000x64, .f32⟩
  | 88 => ⟨S64x32, .f32⟩
  | 89 => ⟨S100000x32, .f32⟩
  | 90 => ⟨S1x32, .f32⟩
  | 91 => ⟨S100000x32, .f32⟩
  | 92 => ⟨S100000x32, .f32⟩
  | 93 => ⟨S_, .f32⟩
  | 94 => ⟨S100000x32, .f32⟩
  | 95 => ⟨S100000x32, .f32⟩
  | 96 => ⟨S32x1, .f32⟩
  | 97 => ⟨S100000x1, .f32⟩
  | 98 => ⟨S1x1, .f32⟩
  | 99 => ⟨S100000x1, .f32⟩
  | 100 => ⟨S100000x1, .f32⟩
  | 101 => ⟨S100000, .f32⟩
  | 102 => ⟨S100000, .f32⟩
  | 103 => ⟨S100000, .f32⟩
  | 104 => ⟨S_, .f32⟩
  | 105 => ⟨S100000, .f32⟩
  | 106 => ⟨S100000, .f32⟩
  | 107 => ⟨S_, .f32⟩
  | 108 => ⟨S100000, .f32⟩
  | 109 => ⟨S100000, .f32⟩
  | 110 => ⟨S_, .f32⟩
  | 111 => ⟨S64, .f32⟩
  | 112 => ⟨S100000x1, .i32⟩
  | 113 => ⟨S64, .f32⟩
  | 114 => ⟨S_, .i32⟩
  | 115 => ⟨S100000, .i32⟩
  | 116 => ⟨S100000, .i1⟩
  | 117 => ⟨S_, .i32⟩
  | 118 => ⟨S100000, .i32⟩
  | 119 => ⟨S100000, .i32⟩
  | 120 => ⟨S100000, .i32⟩
  | 121 => ⟨S100000x1, .i32⟩
  | 122 => ⟨S100000, .f32⟩
  | 123 => ⟨S_, .i32⟩
  | 124 => ⟨S100000, .i32⟩
  | 125 => ⟨S100000, .i1⟩
  | 126 => ⟨S_, .i32⟩
  | 127 => ⟨S100000, .i32⟩
  | _ => ⟨S100000x9, .f32⟩

abbrev hbmTy0_1 (i : Nat) : BufTy := match i % 128 with
  | 0 => ⟨S100000, .i32⟩
  | 1 => ⟨S100000, .i32⟩
  | 2 => ⟨S100000x1, .i32⟩
  | 3 => ⟨S100000, .f32⟩
  | 4 => ⟨S_, .f32⟩
  | 5 => ⟨S100000, .f32⟩
  | 6 => ⟨S100000, .f32⟩
  | 7 => ⟨S100000, .f32⟩
  | 8 => ⟨S_, .f32⟩
  | 9 => ⟨S100000, .f32⟩
  | 10 => ⟨S100000, .f32⟩
  | 11 => ⟨S100000, .f32⟩
  | _ => ⟨S100000x9, .f32⟩

abbrev hbmTy (i : Nat) : BufTy := match i / 128 with
  | 0 => hbmTy0_0 i
  | 1 => hbmTy0_1 i
  | _ => ⟨S100000x9, .f32⟩

abbrev bufTy : (tb : Table) → Fin (tcTables nBuf tb) → BufTy
  | .hbm, ⟨i, _⟩ => hbmTy i
  | _, _ => ⟨S100000x9, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_1 : Ref sig .tc := ⟨.hbm, 32, rfl⟩
abbrev main_v14 : Ref sig .tc := ⟨.hbm, 33, rfl⟩
abbrev main_cst_2 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_3 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_call0_cst : Ref sig .tc := ⟨.hbm, 52, rfl⟩
abbrev main_call0_v0 : Ref sig .tc := ⟨.hbm, 53, rfl⟩
abbrev main_v31 : Ref sig .tc := ⟨.hbm, 54, rfl⟩
abbrev main_c_4 : Ref sig .tc := ⟨.hbm, 55, rfl⟩
abbrev main_v32 : Ref sig .tc := ⟨.hbm, 56, rfl⟩
abbrev main_v33 : Ref sig .tc := ⟨.hbm, 57, rfl⟩
abbrev main_c_5 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_6 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst_7 : Ref sig .tc := ⟨.hbm, 68, rfl⟩
abbrev main_v42 : Ref sig .tc := ⟨.hbm, 69, rfl⟩
abbrev main_cst_8 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_cst_9 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_call1_cst : Ref sig .tc := ⟨.hbm, 93, rfl⟩
abbrev main_call1_v0 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_cst_10 : Ref sig .tc := ⟨.hbm, 104, rfl⟩
abbrev main_v73 : Ref sig .tc := ⟨.hbm, 105, rfl⟩
abbrev main_v74 : Ref sig .tc := ⟨.hbm, 106, rfl⟩
abbrev main_cst_11 : Ref sig .tc := ⟨.hbm, 107, rfl⟩
abbrev main_v75 : Ref sig .tc := ⟨.hbm, 108, rfl⟩
abbrev main_v76 : Ref sig .tc := ⟨.hbm, 109, rfl⟩
abbrev main_cst_12 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_c_13 : Ref sig .tc := ⟨.hbm, 114, rfl⟩
abbrev main_v80 : Ref sig .tc := ⟨.hbm, 115, rfl⟩
abbrev main_v81 : Ref sig .tc := ⟨.hbm, 116, rfl⟩
abbrev main_c_14 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_c_15 : Ref sig .tc := ⟨.hbm, 123, rfl⟩
abbrev main_v87 : Ref sig .tc := ⟨.hbm, 124, rfl⟩
abbrev main_v88 : Ref sig .tc := ⟨.hbm, 125, rfl⟩
abbrev main_c_16 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_cst_17 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_cst_18 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x9 : S_.BroadcastsInDim S100000x9 (![] : Fin 0 → Fin S100000x9.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x9_0_1 : S100000x1.BroadcastsInDim S100000x9 (![0, 1] : Fin 2 → Fin S100000x9.rank)
  transposes_S64x9_S9x64_1_0 : S64x9.Transposes [1, 0] S9x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  transposes_S64x64_S64x64_1_0 : S64x64.Transposes [1, 0] S64x64
  transposes_S32x64_S64x32_1_0 : S32x64.Transposes [1, 0] S64x32
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  transposes_S1x32_S32x1_1_0 : S1x32.Transposes [1, 0] S32x1
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  bcast_S_S64 : S_.BroadcastsInDim S64 (![] : Fin 0 → Fin S64.rank)
  gather_S100000x9_S3200000x1_S3200000x9_1_0_n_n_0_1_19_wf : GatherDims.WF S100000x9 S3200000x1 S3200000x9 [1] [0] [] [0] [] 1 ![1, 9]
  scatter_S100000x9_S3200000x1_S3200000x9_1_0_0_1_wf : ScatterDims.WF S100000x9 S3200000x1 S3200000x9 [1] [0] [0] 1
  scatter_S100000_S3200000x1_S3200000_n_0_0_1_wf : ScatterDims.WF S100000 S3200000x1 S3200000 [] [0] [0] 1
  dot_S100000x9_S9x64_S100000x64_1_0_0_1_n_n_wf : DotDims.WF S100000x9 S9x64 S100000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S100000x64_S64x64_S100000x64_1_0_0_1_n_n_wf : DotDims.WF S100000x64 S64x64 S100000x64 [1] [0] [0] [1] [] []
  dot_S100000x64_S64x32_S100000x32_1_0_0_1_n_n_wf : DotDims.WF S100000x64 S64x32 S100000x32 [1] [0] [0] [1] [] []
  dot_S100000x32_S32x1_S100000x1_1_0_0_1_n_n_wf : DotDims.WF S100000x32 S32x1 S100000x1 [1] [0] [0] [1] [] []
  scatter_S64_S100000x1_S100000_n_0_0_1_wf : ScatterDims.WF S64 S100000x1 S100000 [] [0] [0] 1
  gather_S64_S100000x1_S100000_n_0_n_n_0_1_1_wf : GatherDims.WF S64 S100000x1 S100000 [] [0] [] [0] [] 1 ![1]

variable [Facts₀]

def gather_S100000x9_S3200000x1_S3200000x9_1_0_n_n_0_1_19 : GatherDims S100000x9 S3200000x1 S3200000x9 where
  offsetDims := [1]
  collapsedSliceDims := [0]
  operandBatchingDims := []
  startIndicesBatchingDims := []
  startIndexMap := [0]
  indexVectorDim := 1
  sliceSizes := ![1, 9]
  wf := gather_S100000x9_S3200000x1_S3200000x9_1_0_n_n_0_1_19_wf
def scatter_S100000x9_S3200000x1_S3200000x9_1_0_0_1 : ScatterDims S100000x9 S3200000x1 S3200000x9 where
  updateWindowDims := [1]
  insertedWindowDims := [0]
  scatterDimsToOperandDims := [0]
  indexVectorDim := 1
  wf := scatter_S100000x9_S3200000x1_S3200000x9_1_0_0_1_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S100000x9_S9x64_S100000x64_1_0_0_1_n_n : DotDims S100000x9 S9x64 S100000x64 where
  lhsContracting := [1]
  rhsContracting := [0]
  lhsNonContracting := [0]
  rhsNonContracting := [1]
  lhsBatch := []
  rhsBatch := []
  wf := dot_S100000x9_S9x64_S100000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def dot_S100000x32_S32x1_S100000x1_1_0_0_1_n_n : DotDims S100000x32 S32x1 S100000x1 where
  lhsContracting := [1]
  rhsContracting := [0]
  lhsNonContracting := [0]
  rhsNonContracting := [1]
  lhsBatch := []
  rhsBatch := []
  wf := dot_S100000x32_S32x1_S100000x1_1_0_0_1_n_n_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def gather_S64_S100000x1_S100000_n_0_n_n_0_1_1 : GatherDims S64 S100000x1 S100000 where
  offsetDims := []
  collapsedSliceDims := [0]
  operandBatchingDims := []
  startIndicesBatchingDims := []
  startIndexMap := [0]
  indexVectorDim := 1
  sliceSizes := ![1]
  wf := gather_S64_S100000x1_S100000_n_0_n_n_0_1_1_wf

class Facts : Prop extends Facts₀ where

variable [Facts]
-- ==== Proof.HostDefs.lean ====
/-
  The kernel program's host-side terms by name. The edge list's two rows are cut out and flattened (`srcRaw`, `dstRaw`); a negative
  source id is wrapped by the node count and set as a column of start indices (`srcIdx`); the destination ids as a column are the
  scatter's indices (`dstIdx`); the gathered source rows get a column of ones appended and are summed into their destination rows
  (`comb1`: columns 0..8 the neighbour sums, column 9 the in-degree).
-/
import proofs.«415095_j82609400971333_3_alg».proof.Proof.Gen.KernelIdeal

set_option maxRecDepth 16384

noncomputable section

namespace Cert.KernelIdeal.HostVals

open Cert.KernelIdeal Cert.KernelIdeal.Gen Idealize.ShloMosaic Idealize.ShloMosaic.TcCoe Idealize.SL.Sem Idealize.ShloMosaic.StableHlo

variable {F : FTy → Type} [FloatOps F]

/-- Row 0 of the edge list, flattened: the source node of every edge. -/
def srcRaw (a1 : (⟨S2x3200000, .i32⟩ : BufTy).Contents (Elt F)) : (⟨S3200000, .i32⟩ : BufTy).Contents (Elt F) :=
  shapeCast S3200000 (extractStridedSlice S1x3200000 ![0, 0] a1 slices_S2x3200000_S1x3200000_0_0) shapeCasts_S1x3200000_S3200000

/-- Row 1 of the edge list, flattened: the destination node of every edge. -/
def dstRaw (a1 : (⟨S2x3200000, .i32⟩ : BufTy).Contents (Elt F)) : (⟨S3200000, .i32⟩ : BufTy).Contents (Elt F) :=
  shapeCast S3200000 (extractStridedSlice S1x3200000 ![1, 0] a1 slices_S2x3200000_S1x3200000_1_0) shapeCasts_S1x3200000_S3200000

/-- The gather's start indices: a negative source id wrapped by the node count, as a column. -/
def srcIdx (s : (⟨S3200000, .i32⟩ : BufTy).Contents (Elt F)) : (⟨S3200000x1, .i32⟩ : BufTy).Contents (Elt F) :=
  broadcastInDim S3200000x1 ![0] bcast_S3200000_S3200000x1_0
    (select (cmpi .slt s (broadcastInDim S3200000 ![] bcast_S_S3200000 (constantI S_ 32 0#32)))
      (addi s (broadcastInDim S3200000 ![] bcast_S_S3200000 (constantI S_ 32 100000#32))) s)

/-- The scatter's indices: the destination ids as a column. -/
def dstIdx (d : (⟨S3200000, .i32⟩ : BufTy).Contents (Elt F)) : (⟨S3200000x1, .i32⟩ : BufTy).Contents (Elt F) :=
  broadcastInDim S3200000x1 ![0] bcast_S3200000_S3200000x1_0 d

/-- The fused layer-one aggregate: per destination node, the sum of its in-neighbours' feature rows (columns 0..8) and the
    number of its in-edges (column 9). -/
def comb1 (a0 : (⟨S100000x9, .f32⟩ : BufTy).Contents (Elt F)) (a1 : (⟨S2x3200000, .i32⟩ : BufTy).Contents (Elt F)) :
    (⟨S100000x10, .f32⟩ : BufTy).Contents (Elt F) :=
  Host.scatterAdd scatter_S100000x10_S3200000x1_S3200000x10_1_0_0_1
    (broadcastInDim S100000x10 ![] bcast_S_S100000x10 (constant S_ .f32 0x00000000#32))
    (dstIdx (dstRaw a1))
    (concatenate S3200000x10 1
      [⟨S3200000x9, Host.gather gather_S100000x9_S3200000x1_S3200000x9_1_0_n_n_0_1_19 a0 (srcIdx (srcRaw a1))⟩,
       ⟨S3200000x1, broadcastInDim S3200000x1 ![] bcast_S_S3200000x1 (constant S_ .f32 0x3F800000#32)⟩]
      concatenates_S3200000x9_S3200000x1_S3200000x10_d1)

/-- The layer-two aggregate beside the in-degree column: per destination node, the sum of its in-neighbours' hidden rows
    (columns 0..63), and column 9 of the layer-one aggregate (the in-degree) as column 64. -/
def comb2 (h1 : (⟨S100000x64, .f32⟩ : BufTy).Contents (Elt F)) (s d : (⟨S3200000, .i32⟩ : BufTy).Contents (Elt F))
    (cntcol : (⟨S100000x1, .f32⟩ : BufTy).Contents (Elt F)) : (⟨S100000x65, .f32⟩ : BufTy).Contents (Elt F) :=
  concatenate S100000x65 1
    [⟨S100000x64, Host.scatterAdd scatter_S100000x64_S3200000x1_S3200000x64_1_0_0_1
        (broadcastInDim S100000x64 ![] bcast_S_S100000x64 (constant S_ .f32 0x00000000#32)) (dstIdx d)
        (Host.gather gather_S100000x64_S3200000x1_S3200000x64_1_0_n_n_0_1_164 h1 (srcIdx s))⟩,
     ⟨S100000x1, cntcol⟩]
    concatenates_S100000x64_S100000x1_S100000x65_d1

/-- Column 9 of the layer-one aggregate, as a column: the in-degree. -/
def cntCol (c1 : (⟨S100000x10, .f32⟩ : BufTy).Contents (Elt F)) : (⟨S100000x1, .f32⟩ : BufTy).Contents (Elt F) :=
  extractStridedSlice S100000x1 ![0, 9] c1 slices_S100000x10_S100000x1_0_9

/-- The program's last stretch: the per-node value flattened, summed per graph, the graph's budget divided by that sum plus
    a small constant and capped at one, read back at each node's graph (a negative graph id wrapped by the graph count), and
    multiplied into the node's value. -/
def tail (pi : (⟨S100000x1, .f32⟩ : BufTy).Contents (Elt F)) (a3 : (⟨S100000, .i32⟩ : BufTy).Contents (Elt F))
    (a4 : (⟨S64, .f32⟩ : BufTy).Contents (Elt F)) : (⟨S100000, .f32⟩ : BufTy).Contents (Elt F) :=
  mulf (shapeCast S100000 pi shapeCasts_S100000x1_S100000)
    (Host.gather gather_S64_S100000x1_S100000_n_0_n_n_0_1_1
      (minimumf
        (Host.divf a4
          (addf
            (Host.scatterAdd scatter_S64_S100000x1_S100000_n_0_0_1
              (broadcastInDim S64 ![] bcast_S_S64 (constant S_ .f32 0x00000000#32))
              (broadcastInDim S100000x1 ![0] bcast_S100000_S100000x1_0 a3)
              (shapeCast S100000 pi shapeCasts_S100000x1_S100000))
            (broadcastInDim S64 ![] bcast_S_S64 (constant S_ .f32 0x2B8CBCCC#32))))
        (broadcastInDim S64 ![] bcast_S_S64 (constant S_ .f32 0x3F800000#32)))
      (broadcastInDim S100000x1 ![0] bcast_S100000_S100000x1_0
        (select (cmpi .slt a3 (broadcastInDim S100000 ![] bcast_S_S100000 (constantI S_ 32 0#32)))
          (addi a3 (broadcastInDim S100000 ![] bcast_S_S100000 (constantI S_ 32 64#32))) a3)))

end Cert.KernelIdeal.HostVals

end
-- ==== Proof.HostV1.lean ====
/-
  The first host stretch of the kernel program read back at the fused aggregate: the array of the first call's window 0 at the
  call's entry, and its in-degree column, as terms of the launch contents of @main's arguments.
-/
import proofs.«415095_j82609400971333_3_alg».proof.Proof.Gen.KernelIdeal.Frame
import proofs.«415095_j82609400971333_3_alg».proof.Proof.HostDefs
import Idealize.ShloMosaic.Lib.StableHlo.Run

set_option maxRecDepth 16384

noncomputable section

namespace Cert.KernelIdeal.HostVals

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

set_option maxHeartbeats 4000000 in
/-- Window 0's array at the first call's entry is the fused aggregate of the arguments. -/
theorem V1_v15 (c : Dev nD) : (V1 m ρ c main_v15 : S100000x10.Idx → Elt F .f32)
    = comb1 (m ((c : Thread nD τ).loc main_arg0)) (m ((c : Thread nD τ).loc main_arg1)) := by
  dsimp only [V1, W1, hostOps0]
  after_results
  try rfl

set_option maxHeartbeats 4000000 in
/-- The in-degree column cut out of the fused aggregate. -/
theorem W1_v16 (c : Dev nD) : (W1 m ρ c (Proc.devRef .tc main_v16) : S100000x1.Idx → Elt F .f32)
    = cntCol (comb1 (m ((c : Thread nD τ).loc main_arg0)) (m ((c : Thread nD τ).loc main_arg1))) := by
  dsimp only [W1, hostOps0]
  after_results
  try rfl

end Cert.KernelIdeal.HostVals

end
-- ==== Proof.HostV1b.lean ====
/-
  The first host stretch of the kernel program read back at the small operands of the first call (the transposed weights, the
  bias as a row) and at the flattened edge rows.
-/
import proofs.«415095_j82609400971333_3_alg».proof.Proof.Gen.KernelIdeal.Frame
import proofs.«415095_j82609400971333_3_alg».proof.Proof.HostDefs
import Idealize.ShloMosaic.Lib.StableHlo.Run

set_option maxRecDepth 16384

noncomputable section

namespace Cert.KernelIdeal.HostVals

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

set_option maxHeartbeats 4000000 in
/-- Window 2's array: the left weights transposed. -/
theorem V1_v17 (c : Dev nD) : (V1 m ρ c main_v17 : S9x64.Idx → Elt F .f32)
    = transpose S9x64 [1, 0] (m ((c : Thread nD τ).loc main_arg5)) transposes_S64x9_S9x64_1_0 := by
  dsimp only [V1, W1, hostOps0]
  after_results
  try rfl

set_option maxHeartbeats 4000000 in
/-- Window 3's array: the bias as a row. -/
theorem V1_v19 (c : Dev nD) : (V1 m ρ c main_v19 : S1x64.Idx → Elt F .f32)
    = shapeCast S1x64 (m ((c : Thread nD τ).loc main_arg6)) shapeCasts_S64_S1x64 := by
  dsimp only [V1, W1, hostOps0]
  after_results
  try rfl

set_option maxHeartbeats 4000000 in
/-- Window 4's array: the right weights transposed. -/
theorem V1_v18 (c : Dev nD) : (V1 m ρ c main_v18 : S9x64.Idx → Elt F .f32)
    = transpose S9x64 [1, 0] (m ((c : Thread nD τ).loc main_arg7)) transposes_S64x9_S9x64_1_0 := by
  dsimp only [V1, W1, hostOps0]
  after_results
  try rfl

set_option maxHeartbeats 4000000 in
/-- The flattened source row of the edge list. -/
theorem W1_v1 (c : Dev nD) : (W1 m ρ c (Proc.devRef .tc main_v1) : S3200000.Idx → Elt F .i32)
    = srcRaw (m ((c : Thread nD τ).loc main_arg1)) := by
  dsimp only [W1, hostOps0]
  after_results
  try rfl

set_option maxHeartbeats 4000000 in
/-- The flattened destination row of the edge list. -/
theorem W1_v3 (c : Dev nD) : (W1 m ρ c (Proc.devRef .tc main_v3) : S3200000.Idx → Elt F .i32)
    = dstRaw (m ((c : Thread nD τ).loc main_arg1)) := by
  dsimp only [W1, hostOps0]
  after_results
  try rfl

end Cert.KernelIdeal.HostVals

end
-- ==== Proof.HostV3.lean ====
/-
  The second host stretch of the kernel program read back: what each array of the second pallas_call holds when that call is
  entered, as a term of the contents the first call left (its result array, the flattened edge rows, the in-degree column, the
  arguments).
-/
import proofs.«415095_j82609400971333_3_alg».proof.Proof.Gen.KernelIdeal.Frame
import proofs.«415095_j82609400971333_3_alg».proof.Proof.HostDefs
import Idealize.ShloMosaic.Lib.StableHlo.Run

set_option maxRecDepth 16384

noncomputable section

namespace Cert.KernelIdeal.HostVals

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

set_option maxHeartbeats 4000000 in
/-- Window 0's array at the second call's entry: the layer-two aggregate beside the in-degree column. -/
theorem V3_v31 (c : Dev nD) : (V3 m ρ c main_v31 : S100000x65.Idx → Elt F .f32)
    = comb2 (W2 m ρ c (Proc.devRef .tc main_v20)) (W2 m ρ c (Proc.devRef .tc main_v1)) (W2 m ρ c (Proc.devRef .tc main_v3)) (W2 m ρ c (Proc.devRef .tc main_v16)) := by
  dsimp only [V3, W3, hostOps1]
  after_results
  try rfl

set_option maxHeartbeats 4000000 in
/-- Window 1's array: the first call's result, untouched by the stretch. -/
theorem V3_v20 (c : Dev nD) : (V3 m ρ c main_v20 : S100000x64.Idx → Elt F .f32)
    = W2 m ρ c (Proc.devRef .tc main_v20) := by
  dsimp only [V3, W3, hostOps1]
  after_results
  try rfl

set_option maxHeartbeats 4000000 in
/-- Window 2's array: the layer-two left weights transposed. -/
theorem V3_v32 (c : Dev nD) : (V3 m ρ c main_v32 : S64x64.Idx → Elt F .f32)
    = transpose S64x64 [1, 0] (W2 m ρ c (Proc.devRef .tc main_arg8)) transposes_S64x64_S64x64_1_0 := by
  dsimp only [V3, W3, hostOps1]
  after_results
  try rfl

set_option maxHeartbeats 4000000 in
/-- Window 3's array: the layer-two bias as a row. -/
theorem V3_v36 (c : Dev nD) : (V3 m ρ c main_v36 : S1x64.Idx → Elt F .f32)
    = shapeCast S1x64 (W2 m ρ c (Proc.devRef .tc main_arg9)) shapeCasts_S64_S1x64 := by
  dsimp only [V3, W3, hostOps1]
  after_results
  try rfl

set_option maxHeartbeats 4000000 in
/-- Window 4's array: the layer-two right weights transposed. -/
theorem V3_v33 (c : Dev nD) : (V3 m ρ c main_v33 : S64x64.Idx → Elt F .f32)
    = transpose S64x64 [1, 0] (W2 m ρ c (Proc.devRef .tc main_arg10)) transposes_S64x64_S64x64_1_0 := by
  dsimp only [V3, W3, hostOps1]
  after_results
  try rfl

end Cert.KernelIdeal.HostVals

end
-- ==== Proof.HostV3b.lean ====
/-
  The second host stretch of the kernel program read back at the readout's operands: the two readout weight matrices transposed,
  the two readout biases as rows.
-/
import proofs.«415095_j82609400971333_3_alg».proof.Proof.Gen.KernelIdeal.Frame
import proofs.«415095_j82609400971333_3_alg».proof.Proof.HostDefs
import Idealize.ShloMosaic.Lib.StableHlo.Run

set_option maxRecDepth 16384

noncomputable section

namespace Cert.KernelIdeal.HostVals

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

set_option maxHeartbeats 4000000 in
/-- Window 5's array: the first readout weights transposed. -/
theorem V3_v34 (c : Dev nD) : (V3 m ρ c main_v34 : S64x32.Idx → Elt F .f32)
    = transpose S64x32 [1, 0] (W2 m ρ c (Proc.devRef .tc main_arg11)) transposes_S32x64_S64x32_1_0 := by
  dsimp only [V3, W3, hostOps1]
  after_results
  try rfl

set_option maxHeartbeats 4000000 in
/-- Window 6's array: the first readout bias as a row. -/
theorem V3_v37 (c : Dev nD) : (V3 m ρ c main_v37 : S1x32.Idx → Elt F .f32)
    = shapeCast S1x32 (W2 m ρ c (Proc.devRef .tc main_arg12)) shapeCasts_S32_S1x32 := by
  dsimp only [V3, W3, hostOps1]
  after_results
  try rfl

set_option maxHeartbeats 4000000 in
/-- Window 7's array: the second readout weights transposed. -/
theorem V3_v35 (c : Dev nD) : (V3 m ρ c main_v35 : S32x1.Idx → Elt F .f32)
    = transpose S32x1 [1, 0] (W2 m ρ c (Proc.devRef .tc main_arg13)) transposes_S1x32_S32x1_1_0 := by
  dsimp only [V3, W3, hostOps1]
  after_results
  try rfl

set_option maxHeartbeats 4000000 in
/-- Window 8's array: the second readout bias as a one-by-one block. -/
theorem V3_v38 (c : Dev nD) : (V3 m ρ c main_v38 : S1x1.Idx → Elt F .f32)
    = shapeCast S1x1 (W2 m ρ c (Proc.devRef .tc main_arg14)) shapeCasts_S1_S1x1 := by
  dsimp only [V3, W3, hostOps1]
  after_results
  try rfl

set_option maxHeartbeats 4000000 in
/-- The program's result: the last stretch's term of the second call's result array and the arguments. -/
theorem W5_v56 (c : Dev nD) : (W5 m ρ c (Proc.devRef .tc main_v56) : S100000.Idx → Elt F .f32)
    = tail (W4 m ρ c (Proc.devRef .tc main_v39)) (W4 m ρ c (Proc.devRef .tc main_arg3)) (W4 m ρ c (Proc.devRef .tc main_arg4)) := by
  dsimp only [W5, hostOps2]
  after_results
  try rfl

end Cert.KernelIdeal.HostVals

end
-- ==== Proof.LibScatterRows.lean ====
/-
  Row scatter-add read at an index, over the extended reals.

  `segment_sum(data, ids, N)` of row data `[E, C]` at ids `[E]` lowers to a `stablehlo.scatter` with an `add` body whose operand
  is `[N, C]`, whose scatter indices are `[E, 1]` (index vector on axis 1) and whose updates are `[E, C]` (window axis 1,
  inserted operand axis 0). At the ideal instance its element `(n, k)` is the operand's plus the sum, over the rows `e` whose
  id, read as a signed integer, is `n`, of `data[e, k]`: column `k` of the result only sees column `k` of the data. The
  rank-one form (`data : [E]`, operand `[N]`) reads the same way without the column.

  The road: an update lands on an operand index exactly when, on every operand axis, its signed start plus its window
  coordinate is that index's coordinate; for these dimension numbers the start is the row id on the row axis and zero on
  the column axis, and the window coordinate is zero on the row axis and the update's column on the column axis; the sum
  over update indices is then the double sum over rows and columns, whose inner sum keeps the one column `k`.
-/
import Idealize.ShloMosaic.PureOps.Ideal
import Idealize.ShloMosaic.Lib.ValueIdx

noncomputable section

namespace Idealize.ShloMosaic.ScatterRows

open Idealize.ShloMosaic Idealize.ShloMosaic.ValueIdx

/-- The dimension numbers of a row scatter: operand `[N, C]`, scatter indices `[E, 1]`, updates `[E, C]`. -/
abbrev rowDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The dimension numbers of a rank-one scatter: operand `[N]`, scatter indices `[E, 1]`, updates `[E]`. -/
abbrev vecDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- An update index lands on operand index `i` exactly when, on every operand axis, the signed start plus the window
    coordinate is `i`'s coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  constructor
  · intro h a
    split at h
    · rename_i hb
      have hi := Option.some.inj h
      have := congrArg (fun f => (f a).val) hi
      simp only at this
      have hb' := hb a
      omega
    · exact absurd h (by simp)
  · intro h
    have hb : ∀ a, 0 ≤ d.start j idx a + d.window j a ∧ d.start j idx a + d.window j a < s.size a := by
      intro a
      have := (i a).isLt
      have := h a
      constructor <;> omega
    rw [dif_pos hb]
    congr 1
    funext a
    refine Fin.ext ?_
    have := h a
    show (d.start j idx a + d.window j a).toNat = (i a).val
    omega

section Rows
variable {N E C w : Nat} (wf : ScatterDims.WF ⟨2, ![N, C]⟩ ⟨2, ![E, 1]⟩ ⟨2, ![E, C]⟩ [1] [0] [0] 1)

/-- On the row axis the window starts at the row id, read signed. -/
theorem rows_start0 (idx : IVec ⟨2, ![E, 1]⟩ w) (e : Fin E) (c : Fin C) :
    (rowDims N E C wf).start (ix2 e c) idx 0 = (idx (ix2 e (0 : Fin 1))).toInt := by
  unfold ScatterDims.start
  rw [dif_pos (show (0 : Fin 2) ∈ (rowDims N E C wf).scatterDimsToOperandDims from List.mem_singleton.mpr rfl)]
  have hsi : (rowDims N E C wf).siIdx (ix2 e c) ⟨List.idxOf (0 : Fin 2) (rowDims N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis the window starts at zero. -/
theorem rows_start1 (idx : IVec ⟨2, ![E, 1]⟩ w) (e : Fin E) (c : Fin C) :
    (rowDims N E C wf).start (ix2 e c) idx 1 = 0 := by
  unfold ScatterDims.start
  have h1 : (1 : Fin 2) ∉ ([0] : List (Fin 2)) := by decide
  rw [dif_neg (show ¬ (1 : Fin 2) ∈ (rowDims N E C wf).scatterDimsToOperandDims from h1)]

/-- The row axis is inserted: its window coordinate is zero. -/
theorem rows_window0 (e : Fin E) (c : Fin C) : (rowDims N E C wf).window (ix2 e c) 0 = 0 := by
  unfold ScatterDims.window
  have h0 : (0 : Fin 2) ∉ (List.finRange 2).filter (· ∉ ([0] : List (Fin 2))) := by decide
  rw [dif_neg (show ¬ (0 : Fin 2) ∈ (rowDims N E C wf).sKept from h0)]

/-- The column axis carries the update's column. -/
theorem rows_window1 (e : Fin E) (c : Fin C) : (rowDims N E C wf).window (ix2 e c) 1 = c.val := by
  unfold ScatterDims.window
  have h1 : (1 : Fin 2) ∈ (List.finRange 2).filter (· ∉ ([0] : List (Fin 2))) := by decide
  rw [dif_pos (show (1 : Fin 2) ∈ (rowDims N E C wf).sKept from h1)]
  rfl

/-- An update `(e, c)` of a row scatter lands on `(n, k)` exactly when row `e`'s id, read signed, is `n` and its column
    is `k`. -/
theorem rows_resultIdx?_iff (idx : IVec ⟨2, ![E, 1]⟩ w) (e : Fin E) (c : Fin C) (n : Fin N) (k : Fin C) :
    (rowDims N E C wf).resultIdx? (ix2 e c) idx = some (ix2 n k)
      ↔ (idx (ix2 e (0 : Fin 1))).toInt = (n.val : Int) ∧ c = k := by
  rw [resultIdx?_eq_some_iff]
  constructor
  · intro h
    have h0 : (rowDims N E C wf).start (ix2 e c) idx 0 + ((rowDims N E C wf).window (ix2 e c) 0 : Int) = (n.val : Int) :=
      h 0
    have h1 : (rowDims N E C wf).start (ix2 e c) idx 1 + ((rowDims N E C wf).window (ix2 e c) 1 : Int) = (k.val : Int) :=
      h 1
    rw [rows_start0, rows_window0] at h0
    rw [rows_start1, rows_window1] at h1
    refine ⟨?_, Fin.ext ?_⟩ <;> omega
  · rintro ⟨h0, rfl⟩ a
    match a with
    | ⟨0, _⟩ =>
      show (rowDims N E C wf).start (ix2 e c) idx 0 + ((rowDims N E C wf).window (ix2 e c) 0 : Int) = (n.val : Int)
      rw [rows_start0, rows_window0]; omega
    | ⟨1, _⟩ =>
      show (rowDims N E C wf).start (ix2 e c) idx 1 + ((rowDims N E C wf).window (ix2 e c) 1 : Int) = (c.val : Int)
      rw [rows_start1, rows_window1]; omega

end Rows

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

section Vec
variable {N E w : Nat} (wf : ScatterDims.WF ⟨1, ![N]⟩ ⟨2, ![E, 1]⟩ ⟨1, ![E]⟩ [] [0] [0] 1)

/-- On the one operand axis the window starts at the entry's id, read signed. -/
theorem vec_start0 (idx : IVec ⟨2, ![E, 1]⟩ w) (e : Fin E) :
    (vecDims N E wf).start (ix1 e) idx 0 = (idx (ix2 e (0 : Fin 1))).toInt := by
  unfold ScatterDims.start
  rw [dif_pos (show (0 : Fin 1) ∈ (vecDims N E wf).scatterDimsToOperandDims from List.mem_singleton.mpr rfl)]
  have hsi : (vecDims N E wf).siIdx (ix1 e) ⟨List.idxOf (0 : Fin 1) (vecDims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The one operand axis is inserted: its window coordinate is zero. -/
theorem vec_window0 (e : Fin E) : (vecDims N E wf).window (ix1 e) 0 = 0 := by
  unfold ScatterDims.window
  have h0 : (0 : Fin 1) ∉ (List.finRange 1).filter (· ∉ ([0] : List (Fin 1))) := by decide
  rw [dif_neg (show ¬ (0 : Fin 1) ∈ (vecDims N E wf).sKept from h0)]

/-- An update `e` of a rank-one scatter lands on `n` exactly when its id, read signed, is `n`. -/
theorem vec_resultIdx?_iff (idx : IVec ⟨2, ![E, 1]⟩ w) (e : Fin E) (n : Fin N) :
    (vecDims N E wf).resultIdx? (ix1 e) idx = some (ix1 n) ↔ (idx (ix2 e (0 : Fin 1))).toInt = (n.val : Int) := by
  rw [resultIdx?_eq_some_iff]
  constructor
  · intro h
    have h0 : (vecDims N E wf).start (ix1 e) idx 0 + ((vecDims N E wf).window (ix1 e) 0 : Int) = (n.val : Int) := h 0
    rw [vec_start0, vec_window0] at h0
    omega
  · intro h0 a
    match a with
    | ⟨0, _⟩ =>
      show (vecDims N E wf).start (ix1 e) idx 0 + ((vecDims N E wf).window (ix1 e) 0 : Int) = (n.val : Int)
      rw [vec_start0, vec_window0]; omega

end Vec

/-- Element `(n, k)` of a row scatter-add: the operand's element plus column `k` of the rows whose id is `n`. -/
theorem scatterAdd_rows_apply {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w)
    (upd : (⟨2, ![E, C]⟩ : Shape).Idx → EReal) (n : Fin N) (k : Fin C) :
    Ideal.hostScatterAdd (rowDims N E C wf) x idx upd (ix2 n k)
      = x (ix2 n k) + ∑ e ∈ Finset.univ.filter (fun e : Fin E => (idx (ix2 e (0 : Fin 1))).toInt = (n.val : Int)),
          upd (ix2 e k) := by
  unfold Ideal.hostScatterAdd
  congr 1
  rw [Finset.sum_filter, sum_idx2, Finset.sum_filter]
  refine Finset.sum_congr rfl fun e _ => ?_
  simp only [rows_resultIdx?_iff]
  by_cases hA : (idx (ix2 e (0 : Fin 1))).toInt = (n.val : Int)
  · simp only [hA, true_and, if_true]
    rw [Finset.sum_ite_eq']
    simp
  · simp [hA]

/-- Element `n` of a rank-one scatter-add: the operand's element plus the entries whose id is `n`. -/
theorem scatterAdd_vec_apply {N E w : Nat}
    (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w)
    (upd : (⟨1, ![E]⟩ : Shape).Idx → EReal) (n : Fin N) :
    Ideal.hostScatterAdd (vecDims N E wf) x idx upd (ix1 n)
      = x (ix1 n) + ∑ e ∈ Finset.univ.filter (fun e : Fin E => (idx (ix2 e (0 : Fin 1))).toInt = (n.val : Int)),
          upd (ix1 e) := by
  unfold Ideal.hostScatterAdd
  congr 1
  rw [Finset.sum_filter, sum_idx1, Finset.sum_filter]
  refine Finset.sum_congr rfl fun e _ => ?_
  simp only [vec_resultIdx?_iff]

end Idealize.ShloMosaic.ScatterRows

end
-- ==== Proof.Comb.lean ====
/-
  The kernel program's host-side aggregates are the reference's.

  The kernel program scatters the rows `[x[src] | 1]` (ten columns) into their destination rows in ONE accumulating scatter.
  Read at `(n, k)`, a row scatter-add is the operand's element plus the sum, over the edges whose destination id is `n`, of
  column `k` of the update rows: column `k < 9` only sees column `k` of the gathered source rows, so it is the reference's
  nine-column scatter-add; column 9 sums the ones, so it is the reference's rank-one count. Both programs build the
  destination ids, the wrapped source ids and the gathered rows by the same operations on the edge list, so the index sets
  and the summands agree term by term. In layer two the kernel program appends the count column to the 64-column
  scatter-add of the gathered hidden rows; the reference recomputes the count by the same scatter.
-/
import proofs.«415095_j82609400971333_3_alg».proof.Proof.HostDefs
import proofs.«415095_j82609400971333_3_alg».proof.Proof.Gen.ReferenceIdeal.Read
import proofs.«415095_j82609400971333_3_alg».proof.Proof.LibScatterRows
import Idealize.ShloMosaic.Lib.Pipeline.Value
import Idealize.ShloMosaic.Lib.ValueIdx

noncomputable section

namespace Cert.Bridge

open Idealize.ShloMosaic Idealize.ShloMosaic.ValueIdx

/-- A scalar constant spread over a shape, read at any index: the constant's value. -/
theorem splat_apply {t : Shape} (h : (⟨0, ![]⟩ : Shape).BroadcastsInDim t ![]) (b : BitVec 32) (j : t.Idx) :
    broadcastInDim t ![] h (constant (F := Ideal) ⟨0, ![]⟩ .f32 b) j = Ideal.ofBits .f32 b :=
  broadcastInDim_apply ![] h _ j ix0 (fun a => a.elim0)

/-- The kernel program's scatter indices are the reference's: the destination ids as a column. -/
theorem dst_eq12 (a1 : (⟨Cert.ReferenceIdeal.S2x3200000, .i32⟩ : BufTy).Contents (Elt Ideal)) :
    Cert.KernelIdeal.HostVals.dstIdx (F := Ideal) (Cert.KernelIdeal.HostVals.dstRaw a1)
      = Cert.ReferenceIdeal.Read.val_main_v12 (F := Ideal) a1 := rfl

/-- The same indices under the name the reference's count uses. -/
theorem dst_eq16 (a1 : (⟨Cert.ReferenceIdeal.S2x3200000, .i32⟩ : BufTy).Contents (Elt Ideal)) :
    Cert.KernelIdeal.HostVals.dstIdx (F := Ideal) (Cert.KernelIdeal.HostVals.dstRaw a1)
      = Cert.ReferenceIdeal.Read.val_main_v16 (F := Ideal) a1 := rfl

/-- The kernel program's gathered source rows are the reference's. -/
theorem gath1_eq (a0 : (⟨Cert.ReferenceIdeal.S100000x9, .f32⟩ : BufTy).Contents (Elt Ideal))
    (a1 : (⟨Cert.ReferenceIdeal.S2x3200000, .i32⟩ : BufTy).Contents (Elt Ideal)) :
    Host.gather Cert.KernelIdeal.gather_S100000x9_S3200000x1_S3200000x9_1_0_n_n_0_1_19 a0
        (Cert.KernelIdeal.HostVals.srcIdx (F := Ideal) (Cert.KernelIdeal.HostVals.srcRaw a1))
      = Cert.ReferenceIdeal.Read.val_main_v10 (F := Ideal) a0 a1 := rfl

/-- The host's accumulating scatter at the ideal instance is the exact one (any shapes). -/
theorem host_scatterAdd_eq {s si u : Shape} {w : Nat} (d : ScatterDims s si u) (x : FVec Ideal s .f32) (idx : IVec si w)
    (upd : FVec Ideal u .f32) : Host.scatterAdd d x idx upd = Ideal.hostScatterAdd d x idx upd := rfl

/-- The conditions on the ten-column scatter's dimension numbers, over the literal shapes. -/
theorem wfK10 : ScatterDims.WF ⟨2, ![100000, 10]⟩ ⟨2, ![3200000, 1]⟩ ⟨2, ![3200000, 10]⟩ [1] [0] [0] 1 :=
  Cert.KernelIdeal.scatter_S100000x10_S3200000x1_S3200000x10_1_0_0_1.wf

/-- The kernel program's ten-column scatter has the row scatter's dimension numbers. -/
theorem recK10_eq : Cert.KernelIdeal.scatter_S100000x10_S3200000x1_S3200000x10_1_0_0_1
    = ScatterRows.rowDims 100000 3200000 10 wfK10 := rfl

/-- The conditions on the nine-column scatter's dimension numbers, over the literal shapes. -/
theorem wfR9 : ScatterDims.WF ⟨2, ![100000, 9]⟩ ⟨2, ![3200000, 1]⟩ ⟨2, ![3200000, 9]⟩ [1] [0] [0] 1 :=
  Cert.ReferenceIdeal.scatter_S100000x9_S3200000x1_S3200000x9_1_0_0_1.wf

/-- The reference's nine-column scatter has the row scatter's dimension numbers. -/
theorem recR9_eq : Cert.ReferenceIdeal.scatter_S100000x9_S3200000x1_S3200000x9_1_0_0_1
    = ScatterRows.rowDims 100000 3200000 9 wfR9 := rfl

/-- The conditions on the count scatter's dimension numbers, over the literal shapes. -/
theorem wfR1 : ScatterDims.WF ⟨1, ![100000]⟩ ⟨2, ![3200000, 1]⟩ ⟨1, ![3200000]⟩ [] [0] [0] 1 :=
  Cert.ReferenceIdeal.scatter_S100000_S3200000x1_S3200000_n_0_0_1.wf

/-- The reference's count scatter has the rank-one scatter's dimension numbers. -/
theorem recR1_eq : Cert.ReferenceIdeal.scatter_S100000_S3200000x1_S3200000_n_0_0_1
    = ScatterRows.vecDims 100000 3200000 wfR1 := rfl

/-- Columns 0..8 of the kernel program's fused aggregate are the reference's neighbour sums. -/
theorem comb1_msg (a0 : (⟨Cert.ReferenceIdeal.S100000x9, .f32⟩ : BufTy).Contents (Elt Ideal))
    (a1 : (⟨Cert.ReferenceIdeal.S2x3200000, .i32⟩ : BufTy).Contents (Elt Ideal)) (n : Fin 100000) (k : Fin 9) :
    Cert.KernelIdeal.HostVals.comb1 (F := Ideal) a0 a1 (ix2 n (⟨k.val, by omega⟩ : Fin 10))
      = Cert.ReferenceIdeal.Read.val_main_v13 (F := Ideal) a0 a1 (ix2 n k) := by
  unfold Cert.KernelIdeal.HostVals.comb1 Cert.ReferenceIdeal.Read.val_main_v13 Cert.ReferenceIdeal.Read.val_main_v11
    Cert.ReferenceIdeal.Read.val_main_cst
  rw [dst_eq12, host_scatterAdd_eq, host_scatterAdd_eq, recK10_eq, recR9_eq, ScatterRows.scatterAdd_rows_apply,
    ScatterRows.scatterAdd_rows_apply, splat_apply, splat_apply]
  refine congrArg (Ideal.ofBits .f32 0x00000000#32 + ·) (Finset.sum_congr rfl fun e _ => ?_)
  exact (concatenate_pair_apply_left (t := Cert.KernelIdeal.S3200000x10) (s₁ := Cert.KernelIdeal.S3200000x9)
    (s₂ := Cert.KernelIdeal.S3200000x1) 1 _ _ _ (ix2 e (⟨k.val, by omega⟩ : Fin 10)) rfl (ix2 e k)
    (fun b => match b with | ⟨0, _⟩ => rfl | ⟨1, _⟩ => rfl)).trans (congrFun (gath1_eq a0 a1) (ix2 e k))

/-- Column 9 of the kernel program's fused aggregate is the reference's in-degree. -/
theorem comb1_cnt (a0 : (⟨Cert.ReferenceIdeal.S100000x9, .f32⟩ : BufTy).Contents (Elt Ideal))
    (a1 : (⟨Cert.ReferenceIdeal.S2x3200000, .i32⟩ : BufTy).Contents (Elt Ideal)) (n : Fin 100000) :
    Cert.KernelIdeal.HostVals.comb1 (F := Ideal) a0 a1 (ix2 n (9 : Fin 10))
      = Cert.ReferenceIdeal.Read.val_main_v17 (F := Ideal) a1 (ix1 n) := by
  unfold Cert.KernelIdeal.HostVals.comb1 Cert.ReferenceIdeal.Read.val_main_v17 Cert.ReferenceIdeal.Read.val_main_v15
    Cert.ReferenceIdeal.Read.val_main_cst_2 Cert.ReferenceIdeal.Read.val_main_v14 Cert.ReferenceIdeal.Read.val_main_cst_1
  rw [dst_eq16, host_scatterAdd_eq, host_scatterAdd_eq, recK10_eq, recR1_eq, ScatterRows.scatterAdd_rows_apply,
    ScatterRows.scatterAdd_vec_apply, splat_apply, splat_apply]
  refine congrArg (Ideal.ofBits .f32 0x00000000#32 + ·) (Finset.sum_congr rfl fun e _ => ?_)
  refine (concatenate_pair_apply_right (t := Cert.KernelIdeal.S3200000x10) (s₁ := Cert.KernelIdeal.S3200000x9)
    (s₂ := Cert.KernelIdeal.S3200000x1) 1 _ _ _ (ix2 e (9 : Fin 10)) rfl rfl (ix2 e (0 : Fin 1))
    (fun b hb => match b, hb with | ⟨0, _⟩, _ => rfl | ⟨1, _⟩, hb => absurd rfl hb) rfl).trans ?_
  exact (splat_apply _ _ _).trans (splat_apply _ _ _).symm

/-- The reference's second in-degree (layer two recomputes it) is its first. -/
theorem cnt2_eq (a1 : (⟨Cert.ReferenceIdeal.S2x3200000, .i32⟩ : BufTy).Contents (Elt Ideal)) :
    Cert.ReferenceIdeal.Read.val_main_v45 (F := Ideal) a1 = Cert.ReferenceIdeal.Read.val_main_v17 (F := Ideal) a1 := by
  rfl

/-- Columns 0..63 of the kernel program's layer-two aggregate are the reference's layer-two neighbour sums, the hidden rows
    being the reference's. -/
theorem comb2_msg (a0 : (⟨Cert.ReferenceIdeal.S100000x9, .f32⟩ : BufTy).Contents (Elt Ideal))
    (a1 : (⟨Cert.ReferenceIdeal.S2x3200000, .i32⟩ : BufTy).Contents (Elt Ideal))
    (a5 : (⟨Cert.ReferenceIdeal.S64x9, .f32⟩ : BufTy).Contents (Elt Ideal)) (a6 : (⟨Cert.ReferenceIdeal.S64, .f32⟩ : BufTy).Contents (Elt Ideal))
    (a7 : (⟨Cert.ReferenceIdeal.S64x9, .f32⟩ : BufTy).Contents (Elt Ideal))
    (cc : (⟨Cert.KernelIdeal.S100000x1, .f32⟩ : BufTy).Contents (Elt Ideal)) (n : Fin 100000) (k : Fin 64) :
    Cert.KernelIdeal.HostVals.comb2 (F := Ideal) (Cert.ReferenceIdeal.Read.val_main_v31 (F := Ideal) a0 a1 a5 a6 a7)
        (Cert.KernelIdeal.HostVals.srcRaw a1) (Cert.KernelIdeal.HostVals.dstRaw a1) cc (ix2 n (⟨k.val, by omega⟩ : Fin 65))
      = Cert.ReferenceIdeal.Read.val_main_v41 (F := Ideal) a0 a1 a5 a6 a7 (ix2 n k) := by
  unfold Cert.KernelIdeal.HostVals.comb2
  refine (concatenate_pair_apply_left (t := Cert.KernelIdeal.S100000x65) (s₁ := Cert.KernelIdeal.S100000x64)
    (s₂ := Cert.KernelIdeal.S100000x1) 1 _ cc _ (ix2 n (⟨k.val, by omega⟩ : Fin 65)) rfl (ix2 n k)
    (fun b => match b with | ⟨0, _⟩ => rfl | ⟨1, _⟩ => rfl)).trans ?_
  rfl

/-- Column 64 of the kernel program's layer-two aggregate is the column it was given. -/
theorem comb2_cnt (h1 : (⟨Cert.KernelIdeal.S100000x64, .f32⟩ : BufTy).Contents (Elt Ideal))
    (s d : (⟨Cert.KernelIdeal.S3200000, .i32⟩ : BufTy).Contents (Elt Ideal))
    (cc : (⟨Cert.KernelIdeal.S100000x1, .f32⟩ : BufTy).Contents (Elt Ideal)) (n : Fin 100000) :
    Cert.KernelIdeal.HostVals.comb2 (F := Ideal) h1 s d cc (ix2 n (64 : Fin 65)) = cc (ix2 n (0 : Fin 1)) := by
  unfold Cert.KernelIdeal.HostVals.comb2
  exact concatenate_pair_apply_right (t := Cert.KernelIdeal.S100000x65) (s₁ := Cert.KernelIdeal.S100000x64)
    (s₂ := Cert.KernelIdeal.S100000x1) 1 _ cc _ (ix2 n (64 : Fin 65)) rfl rfl (ix2 n (0 : Fin 1))
    (fun b hb => match b, hb with | ⟨0, _⟩, _ => rfl | ⟨1, _⟩, hb => absurd rfl hb) rfl

/-- The in-degree column of an aggregate, at a row: its column 9. -/
theorem cntCol_apply (c1 : (⟨Cert.KernelIdeal.S100000x10, .f32⟩ : BufTy).Contents (Elt Ideal)) (n : Fin 100000) :
    Cert.KernelIdeal.HostVals.cntCol (F := Ideal) c1 (ix2 n (0 : Fin 1)) = c1 (ix2 n (9 : Fin 10)) := by
  unfold Cert.KernelIdeal.HostVals.cntCol
  exact extractStridedSlice_apply _ c1 _ (ix2 n (0 : Fin 1)) (ix2 n (9 : Fin 10))
    (fun a => match a with | ⟨0, _⟩ => (Nat.zero_add _).symm | ⟨1, _⟩ => rfl)

end Cert.Bridge

end
-- ==== Proof.LibMatmulRows.lean ====
/-
  A plain matrix product read at an index, over the extended reals.

  The unit's matrix product `tpu.matmul` of an `[M, K]` block by a `[K, N]` block into a zero accumulator (dimension numbers
  `[1] x [0]`, rows by columns, no batch axis) has, at the ideal instance, element `(i, j)` equal to the plain sum over
  `k : Fin K` of `lhs (i, k) * rhs (k, j)`: the contraction shape has one axis of extent `K`, and the operand indices the
  dimension numbers name are `(i, k)` on the left and `(k, j)` on the right.
-/
import Idealize.ShloMosaic.PureOps.Ideal.Laws
import Idealize.ShloMosaic.Lib.ValueIdx

noncomputable section

namespace Idealize.ShloMosaic.MatmulRows

open Idealize.ShloMosaic Idealize.ShloMosaic.ValueIdx

variable (M K N : Nat)

theorem lhs_0 (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch by simp [DotDims.plain]),
    dif_pos (show (0 : Fin 2) ∈ (DotDims.plain M K N).lhsNonContracting by simp [DotDims.plain])]
  rfl

theorem lhs_1 (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

theorem rhs_0 (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

theorem rhs_1 (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch by simp [DotDims.plain]),
    dif_pos (show (1 : Fin 2) ∈ (DotDims.plain M K N).rhsNonContracting by simp [DotDims.plain])]
  rfl

/-- The contraction's sum at `(i, j)` is the textbook sum over `k : Fin K` of `lhs (i, k) * rhs (k, j)`. -/
theorem plain_sum (lhs : (⟨2, ![M, K]⟩ : Shape).Idx → EReal) (rhs : (⟨2, ![K, N]⟩ : Shape).Idx → EReal) (i : Fin M) (j : Fin N) :
    ∑ q : (DotDims.plain M K N).contr.Idx, lhs ((DotDims.plain M K N).lhsIdx (ix2 i j) q) * rhs ((DotDims.plain M K N).rhsIdx (ix2 i j) q)
      = ∑ k : Fin K, lhs (ix2 i k) * rhs (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => exact lhs_0 M K N _ _
      | ⟨1, _⟩ => exact (lhs_1 M K N _ _).trans hk)
  have er : (DotDims.plain M K N).rhsIdx (ix2 i j) ((contrEquiv1 (DotDims.plain M K N) K rfl rfl).symm k) = ix2 k j :=
    funext fun a => Fin.ext (by
      match a with
      | ⟨0, _⟩ => exact (rhs_0 M K N _ _).trans hk
      | ⟨1, _⟩ => exact rhs_1 M K N _ _)
  rw [el, er]

/-- `tpu.matmul` into the zero splat, at `(i, j)`: the textbook sum. -/
theorem matmul_zero_apply {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) := by
  rw [Ideal.matmul_constant_zero_apply]
  exact plain_sum M K N lhs rhs i j

end Idealize.ShloMosaic.MatmulRows

end
-- ==== Proof.Pay.lean ====
/-
  The two kernel bodies' stored values read at one index, over the extended reals.

  The first body stores, at `(p, q)`, the maximum with zero of one SAGE row: the neighbour sum of row `p` divided entrywise by
  the count clamped below at one, through column `q` of the left weights, plus the bias entry `q`, plus row `p` of the root
  features through column `q` of the right weights. The second body computes the same row over 64 features for each of 64
  hidden units, passes the hidden block through a `[64, 32]` product with a bias and a clamp at zero, and stores at `(p, 0)`
  the logistic of the `[32, 1]` product plus the output bias. At the ideal instance the format changes are the identity, each
  product into the zero accumulator is the plain sum over the inner index, and a broadcast of a column, a row or a single
  entry reads that column, row or entry.
-/
import proofs.«415095_j82609400971333_3_alg».proof.Proof.Gen.KernelIdeal.Skeleton
import proofs.«415095_j82609400971333_3_alg».proof.Proof.LibMatmulRows
import Idealize.ShloMosaic.Lib.Pipeline.Value
import Idealize.ShloMosaic.Lib.ValueIdx
import Idealize.ShloMosaic.PureOps.Ideal.Laws

noncomputable section

namespace Cert.KernelIdeal.Pay

open Cert.KernelIdeal Cert.KernelIdeal.Gen Idealize.ShloMosaic Idealize.ShloMosaic.ValueIdx

/-- The float literal 1.0 and the zero word, at the ideal instance (kept as words: the same words stand on the reference's side). -/
abbrev one : EReal := Ideal.ofBits .f32 0x3F800000#32
abbrev zero : EReal := Ideal.ofBits .f32 0x00000000#32

/-- One SAGE row: the neighbour sum divided by the clamped count, through the left weights, plus the bias, plus the root row through the right weights. -/
def sageRow {K : Nat} (msg : Fin K → EReal) (cnt : EReal) (wl : Fin K → EReal) (b : EReal) (x : Fin K → EReal) (wr : Fin K → EReal) : EReal :=
  ((∑ k : Fin K, Ideal.div (msg k) (max cnt one) * wl k) + b) + ∑ k : Fin K, x k * wr k

/-- A column `[5000, 1]` broadcast along nine columns, read at `(p, k)`: the column's entry at row `p`. -/
theorem bc_col9 {α : Type} (v : S5000x1.Idx → α) (p : Fin 5000) (k : Fin 9) :
    broadcastTo S5000x9 v broadcasts_S5000x1_S5000x9 (ix2 p k) = v (ix2 p (0 : Fin 1)) :=
  broadcastTo_apply v broadcasts_S5000x1_S5000x9 (ix2 p k) (ix2 p (0 : Fin 1)) (fun a => match a with
    | ⟨0, _⟩ => by show p.val = if (5000 : Nat) = 1 then 0 else p.val; rw [if_neg (by decide)]
    | ⟨1, _⟩ => by show 0 = if (1 : Nat) = 1 then 0 else k.val; rw [if_pos rfl])

/-- A row `[1, 64]` broadcast along 5000 rows, read at `(p, q)`: the row's entry at column `q`. -/
theorem bc_row64 {α : Type} (v : S1x64.Idx → α) (p : Fin 5000) (q : Fin 64) :
    broadcastTo S5000x64 v broadcasts_S1x64_S5000x64 (ix2 p q) = v (ix2 (0 : Fin 1) q) :=
  broadcastTo_apply v broadcasts_S1x64_S5000x64 (ix2 p q) (ix2 (0 : Fin 1) q) (fun a => match a with
    | ⟨0, _⟩ => by show 0 = if (1 : Nat) = 1 then 0 else p.val; rw [if_pos rfl]
    | ⟨1, _⟩ => by show q.val = if (64 : Nat) = 1 then 0 else q.val; rw [if_neg (by decide)])

/-- The `[5000, 9]` by `[9, 64]` product into the zero splat, at `(p, q)`: the sum over the nine inner indices. -/
theorem mm_9 {φ₁ φ₂ : FTy} (l : FVec Ideal S5000x9 φ₁) (r : FVec Ideal S9x64 φ₂) (p : Fin 5000) (q : Fin 64) :
    matmul dot_S5000x9_S9x64_S5000x64_1_0_0_1_n_n none l r (constant S5000x64 .f32 0x00000000#32) (ix2 p q)
      = ∑ k : Fin 9, l (ix2 p k) * r (ix2 k q) :=
  MatmulRows.matmul_zero_apply 5000 9 64 none l r p q

/-- A column `[5000, 1]` broadcast along 64 columns, read at `(p, k)`: the column's entry at row `p`. -/
theorem bc_col64 {α : Type} (v : S5000x1.Idx → α) (p : Fin 5000) (k : Fin 64) :
    broadcastTo S5000x64 v broadcasts_S5000x1_S5000x64 (ix2 p k) = v (ix2 p (0 : Fin 1)) :=
  broadcastTo_apply v broadcasts_S5000x1_S5000x64 (ix2 p k) (ix2 p (0 : Fin 1)) (fun a => match a with
    | ⟨0, _⟩ => by show p.val = if (5000 : Nat) = 1 then 0 else p.val; rw [if_neg (by decide)]
    | ⟨1, _⟩ => by show 0 = if (1 : Nat) = 1 then 0 else k.val; rw [if_pos rfl])

/-- A row `[1, 32]` broadcast along 5000 rows, read at `(p, k)`: the row's entry at column `k`. -/
theorem bc_row32 {α : Type} (v : S1x32.Idx → α) (p : Fin 5000) (k : Fin 32) :
    broadcastTo S5000x32 v broadcasts_S1x32_S5000x32 (ix2 p k) = v (ix2 (0 : Fin 1) k) :=
  broadcastTo_apply v broadcasts_S1x32_S5000x32 (ix2 p k) (ix2 (0 : Fin 1) k) (fun a => match a with
    | ⟨0, _⟩ => by show 0 = if (1 : Nat) = 1 then 0 else p.val; rw [if_pos rfl]
    | ⟨1, _⟩ => by show k.val = if (32 : Nat) = 1 then 0 else k.val; rw [if_neg (by decide)])

/-- The one entry `[1, 1]` broadcast along 5000 rows, read at `(p, 0)`: that entry. -/
theorem bc_one {α : Type} (v : S1x1.Idx → α) (p : Fin 5000) :
    broadcastTo S5000x1 v broadcasts_S1x1_S5000x1 (ix2 p (0 : Fin 1)) = v (ix2 (0 : Fin 1) (0 : Fin 1)) :=
  broadcastTo_apply v broadcasts_S1x1_S5000x1 (ix2 p (0 : Fin 1)) (ix2 (0 : Fin 1) (0 : Fin 1)) (fun a => match a with
    | ⟨0, _⟩ => by show 0 = if (1 : Nat) = 1 then 0 else p.val; rw [if_pos rfl]
    | ⟨1, _⟩ => by show 0 = if (1 : Nat) = 1 then 0 else (0 : Fin 1).val; rw [if_pos rfl])

/-- The `[5000, 64]` by `[64, 64]` product into the zero splat, at `(p, q)`: the sum over the 64 inner indices. -/
theorem mm_64 {φ₁ φ₂ : FTy} (l : FVec Ideal S5000x64 φ₁) (r : FVec Ideal S64x64 φ₂) (p : Fin 5000) (q : Fin 64) :
    matmul dot_S5000x64_S64x64_S5000x64_1_0_0_1_n_n none l r (constant S5000x64 .f32 0x00000000#32) (ix2 p q)
      = ∑ k : Fin 64, l (ix2 p k) * r (ix2 k q) :=
  MatmulRows.matmul_zero_apply 5000 64 64 none l r p q

/-- The `[5000, 64]` by `[64, 32]` product into the zero splat, at `(p, k)`: the sum over the 64 inner indices. -/
theorem mm_64_32 {φ₁ φ₂ : FTy} (l : FVec Ideal S5000x64 φ₁) (r : FVec Ideal S64x32 φ₂) (p : Fin 5000) (k : Fin 32) :
    matmul dot_S5000x64_S64x32_S5000x32_1_0_0_1_n_n none l r (constant S5000x32 .f32 0x00000000#32) (ix2 p k)
      = ∑ j : Fin 64, l (ix2 p j) * r (ix2 j k) :=
  MatmulRows.matmul_zero_apply 5000 64 32 none l r p k

/-- The `[5000, 32]` by `[32, 1]` product into the zero splat, at `(p, 0)`: the sum over the 32 inner indices. -/
theorem mm_32_1 {φ₁ φ₂ : FTy} (l : FVec Ideal S5000x32 φ₁) (r : FVec Ideal S32x1 φ₂) (p : Fin 5000) :
    matmul dot_S5000x32_S32x1_S5000x1_1_0_0_1_n_n none l r (constant S5000x1 .f32 0x00000000#32) (ix2 p (0 : Fin 1))
      = ∑ k : Fin 32, l (ix2 p k) * r (ix2 k (0 : Fin 1)) :=
  MatmulRows.matmul_zero_apply 5000 32 1 none l r p (0 : Fin 1)

/-- The hidden layer's value at `(p, j)` before the second product: one SAGE row. -/
theorem hidden_apply (v0 : Vec Ideal S5000x64 .f32) (v2 : Vec Ideal S5000x1 .f32) (v9 : Vec Ideal S5000x64 .f32)
    (v12 v15 : Vec Ideal S64x64 .f32) (v18 : Vec Ideal S1x64 .f32) (v25 : Vec Ideal S64x32 .f32) (v28 : Vec Ideal S1x32 .f32)
    (p : Fin 5000) (k : Fin 32) :
    k1_pay2 v0 v2 v9 v12 v15 v18 v25 v28 (ix2 p k)
      = max ((∑ j : Fin 64,
          sageRow (fun i : Fin 64 => v0 (ix2 p i)) (v2 (ix2 p (0 : Fin 1))) (fun i => v12 (ix2 i j)) (v18 (ix2 (0 : Fin 1) j))
            (fun i => v9 (ix2 p i)) (fun i => v15 (ix2 i j)) * v25 (ix2 j k)) + v28 (ix2 (0 : Fin 1) k)) zero := by
  unfold k1_pay2
  rw [maximumf_apply, addf_apply, mm_64_32, bc_row32, broadcast_apply]
  simp only [truncf_apply, addf_apply, mm_64, bc_row64, divf_apply, shapeCast_self, bc_col64, maximumf_apply, broadcast_apply]
  rfl

/-- The last layer at `(p, 0)` over any hidden block: the logistic of the row's product with the weights plus the bias. -/
theorem out_apply (h : FVec Ideal S5000x32 .f32) (v36 : Vec Ideal S32x1 .f32) (v39 : Vec Ideal S1x1 .f32) (p : Fin 5000) :
    k1_pay1 h v36 v39 (ix2 p (0 : Fin 1))
      = Ideal.logistic ((∑ k : Fin 32, h (ix2 p k) * v36 (ix2 k (0 : Fin 1))) + v39 (ix2 (0 : Fin 1) (0 : Fin 1))) := by
  unfold k1_pay1
  show FloatOps.logistic _ = _
  rw [Ideal.logistic_def, addf_apply, mm_32_1, bc_one]
  simp only [truncf_apply, shapeCast_self]

/-- The first layer's stored value at `(p, q)`: one SAGE row of the nine input features, clamped below at zero. -/
theorem pay0_apply (v0 : Vec Ideal S5000x9 .f32) (v2 : Vec Ideal S5000x1 .f32) (v9 : Vec Ideal S5000x9 .f32)
    (v11 v14 : Vec Ideal S9x64 .f32) (v17 : Vec Ideal S1x64 .f32) (p : Fin 5000) (q : Fin 64) :
    k0_pay1 v0 v2 v9 v11 v14 v17 (ix2 p q)
      = max (sageRow (fun k : Fin 9 => v0 (ix2 p k)) (v2 (ix2 p (0 : Fin 1))) (fun k => v11 (ix2 k q)) (v17 (ix2 (0 : Fin 1) q))
          (fun k => v9 (ix2 p k)) (fun k => v14 (ix2 k q))) zero := by
  unfold k0_pay1
  rw [maximumf_apply, addf_apply, addf_apply, mm_9, mm_9, bc_row64, broadcast_apply]
  simp only [truncf_apply, divf_apply, shapeCast_self, bc_col9, maximumf_apply, broadcast_apply]
  rfl

/-- The second layer's stored value at `(p, 0)`: the logistic of the bias plus the sum over the 32 hidden units of the
    unit's value (its 64 SAGE rows through the hidden weights plus its bias, clamped below at zero) times its output weight. -/
theorem pay1_apply (v0 : Vec Ideal S5000x64 .f32) (v2 : Vec Ideal S5000x1 .f32) (v9 : Vec Ideal S5000x64 .f32)
    (v12 v15 : Vec Ideal S64x64 .f32) (v18 : Vec Ideal S1x64 .f32) (v25 : Vec Ideal S64x32 .f32) (v28 : Vec Ideal S1x32 .f32)
    (v36 : Vec Ideal S32x1 .f32) (v39 : Vec Ideal S1x1 .f32) (p : Fin 5000) :
    k1_pay1 (k1_pay2 v0 v2 v9 v12 v15 v18 v25 v28) v36 v39 (ix2 p (0 : Fin 1))
      = Ideal.logistic ((∑ k : Fin 32,
          max ((∑ j : Fin 64,
              sageRow (fun i : Fin 64 => v0 (ix2 p i)) (v2 (ix2 p (0 : Fin 1))) (fun i => v12 (ix2 i j)) (v18 (ix2 (0 : Fin 1) j))
                (fun i => v9 (ix2 p i)) (fun i => v15 (ix2 i j)) * v25 (ix2 j k)) + v28 (ix2 (0 : Fin 1) k)) zero
            * v36 (ix2 k (0 : Fin 1))) + v39 (ix2 (0 : Fin 1) (0 : Fin 1))) := by
  rw [out_apply]
  simp only [hidden_apply]

end Cert.KernelIdeal.Pay

end
-- ==== Proof.SageCongr.lean ====
/-
  The SAGE row is a function of its arguments' values: two rows whose neighbour sums, counts, weights, bias and root features
  agree entry by entry are equal.
-/
import proofs.«415095_j82609400971333_3_alg».proof.Proof.Pay

noncomputable section

namespace Cert.KernelIdeal.Pay

/-- The SAGE row depends on its six arguments only through their values. -/
theorem sageRow_congr {K : Nat} {msg msg' : Fin K → EReal} {cnt cnt' : EReal} {wl wl' : Fin K → EReal} {b b' : EReal}
    {x x' : Fin K → EReal} {wr wr' : Fin K → EReal} (h1 : ∀ k, msg k = msg' k) (h2 : cnt = cnt') (h3 : ∀ k, wl k = wl' k)
    (h4 : b = b') (h5 : ∀ k, x k = x' k) (h6 : ∀ k, wr k = wr' k) :
    sageRow msg cnt wl b x wr = sageRow msg' cnt' wl' b' x' wr' := by
  rw [show msg = msg' from funext h1, h2, show wl = wl' from funext h3, h4, show x = x' from funext h5, show wr = wr' from funext h6]

/-- The zero offsets of a whole-block access, however spelt. -/
theorem hz : (![0, 0] : Fin 2 → Nat) = fun _ => 0 := funext fun a => by fin_cases a <;> rfl

end Cert.KernelIdeal.Pay

end
-- ==== Proof.RefRead.lean ====
/-
  The reference program's dense stages read at an index.

  The reference computes, on the host, two SAGE layers and a two-layer readout as whole-array operations: a quotient of the
  neighbour sums by the clamped in-degree broadcast along the row, `dot_general`s against transposed weights, broadcast biases,
  clamps at zero, and the logistic function spelt `1 / (1 + exp (-x))`. Read entry by entry over the extended reals each
  `dot_general` is a plain sum over the contracted index, each broadcast and transpose a re-indexing, so the hidden layer at
  `(n, q)` is the SAGE row of node `n` against feature `q`'s weights clamped at zero, the logit at `(n, 0)` is the readout of the
  second SAGE row, and the per-node value is the logistic function of the logit. The scatter-added stages (neighbour sums,
  in-degree) stay named: nothing here opens them.
-/
import proofs.«415095_j82609400971333_3_alg».proof.Proof.Gen.ReferenceIdeal.Read
import proofs.«415095_j82609400971333_3_alg».proof.Proof.Pay
import Idealize.ShloMosaic.Lib.Pipeline.Value
import Idealize.ShloMosaic.Lib.ValueIdx
import Idealize.ShloMosaic.Lib.IdealHost
import Idealize.ShloMosaic.PureOps.Ideal.Laws

noncomputable section

namespace Cert.ReferenceIdeal.RefRead

open Cert.ReferenceIdeal Cert.ReferenceIdeal.Gen Cert.ReferenceIdeal.Read Idealize.ShloMosaic Idealize.ShloMosaic.ValueIdx
open Cert.KernelIdeal.Pay (sageRow one zero)

variable (x0 : (⟨S100000x9, .f32⟩ : BufTy).Contents (Elt Ideal)) (x1 : (⟨S2x3200000, .i32⟩ : BufTy).Contents (Elt Ideal))
  (x3 : (⟨S100000, .i32⟩ : BufTy).Contents (Elt Ideal)) (x4 : (⟨S64, .f32⟩ : BufTy).Contents (Elt Ideal))
  (x5 : (⟨S64x9, .f32⟩ : BufTy).Contents (Elt Ideal)) (x6 : (⟨S64, .f32⟩ : BufTy).Contents (Elt Ideal))
  (x7 : (⟨S64x9, .f32⟩ : BufTy).Contents (Elt Ideal)) (x8 : (⟨S64x64, .f32⟩ : BufTy).Contents (Elt Ideal))
  (x9 : (⟨S64, .f32⟩ : BufTy).Contents (Elt Ideal)) (x10 : (⟨S64x64, .f32⟩ : BufTy).Contents (Elt Ideal))
  (x11 : (⟨S32x64, .f32⟩ : BufTy).Contents (Elt Ideal)) (x12 : (⟨S32, .f32⟩ : BufTy).Contents (Elt Ideal))
  (x13 : (⟨S1x32, .f32⟩ : BufTy).Contents (Elt Ideal)) (x14 : (⟨S1, .f32⟩ : BufTy).Contents (Elt Ideal))

/-! ### Index equations

The layout stages (transposes, broadcasts, the contraction's two index maps) compose to plain coordinate pairs. -/

theorem l24 (i : S100000x64.Idx) (k : Fin 9) : lidx_main_v24 i k = ix2 (i 0) k :=
  funext fun d => Fin.ext (by match d with | ⟨0, _⟩ => rfl | ⟨1, _⟩ => rfl)

theorem r24 (i : S100000x64.Idx) (k : Fin 9) : idx_main_v23 (ridx_main_v24 i k) = ix2 (i 1) k :=
  funext fun d => Fin.ext (by match d with | ⟨0, _⟩ => rfl | ⟨1, _⟩ => rfl)

theorem c24 (i : S100000x64.Idx) (k : Fin 9) : idx_main_v20 (idx_main_v21 (lidx_main_v24 i k)) = ix1 (i 0) :=
  funext fun d => Fin.ext (by match d with | ⟨0, _⟩ => rfl)

theorem b26 (i : S100000x64.Idx) : idx_main_v25 (idx_main_v26 i) = ix1 (i 1) :=
  funext fun d => Fin.ext (by match d with | ⟨0, _⟩ => rfl)

theorem l29 (i : S100000x64.Idx) (k : Fin 9) : lidx_main_v29 i k = ix2 (i 0) k :=
  funext fun d => Fin.ext (by match d with | ⟨0, _⟩ => rfl | ⟨1, _⟩ => rfl)

theorem r29 (i : S100000x64.Idx) (k : Fin 9) : idx_main_v28 (ridx_main_v29 i k) = ix2 (i 1) k :=
  funext fun d => Fin.ext (by match d with | ⟨0, _⟩ => rfl | ⟨1, _⟩ => rfl)

theorem l52 (n : Fin 100000) (j a : Fin 64) : lidx_main_v52 (ix2 n j) a = ix2 n a :=
  funext fun d => Fin.ext (by match d with | ⟨0, _⟩ => rfl | ⟨1, _⟩ => rfl)

theorem r52 (n : Fin 100000) (j a : Fin 64) : idx_main_v51 (ridx_main_v52 (ix2 n j) a) = ix2 j a :=
  funext fun d => Fin.ext (by match d with | ⟨0, _⟩ => rfl | ⟨1, _⟩ => rfl)

theorem c52 (n : Fin 100000) (j a : Fin 64) : idx_main_v48 (idx_main_v49 (lidx_main_v52 (ix2 n j) a)) = ix1 n :=
  funext fun d => Fin.ext (by match d with | ⟨0, _⟩ => rfl)

theorem b54 (n : Fin 100000) (j : Fin 64) : idx_main_v53 (idx_main_v54 (ix2 n j)) = ix1 j :=
  funext fun d => Fin.ext (by match d with | ⟨0, _⟩ => rfl)

theorem l57 (n : Fin 100000) (j a : Fin 64) : lidx_main_v57 (ix2 n j) a = ix2 n a :=
  funext fun d => Fin.ext (by match d with | ⟨0, _⟩ => rfl | ⟨1, _⟩ => rfl)

theorem r57 (n : Fin 100000) (j a : Fin 64) : idx_main_v56 (ridx_main_v57 (ix2 n j) a) = ix2 j a :=
  funext fun d => Fin.ext (by match d with | ⟨0, _⟩ => rfl | ⟨1, _⟩ => rfl)

theorem l60 (n : Fin 100000) (k : Fin 32) (j : Fin 64) : lidx_main_v60 (ix2 n k) j = ix2 n j :=
  funext fun d => Fin.ext (by match d with | ⟨0, _⟩ => rfl | ⟨1, _⟩ => rfl)

theorem r60 (n : Fin 100000) (k : Fin 32) (j : Fin 64) : idx_main_v59 (ridx_main_v60 (ix2 n k) j) = ix2 k j :=
  funext fun d => Fin.ext (by match d with | ⟨0, _⟩ => rfl | ⟨1, _⟩ => rfl)

theorem b62 (n : Fin 100000) (k : Fin 32) : idx_main_v61 (idx_main_v62 (ix2 n k)) = ix1 k :=
  funext fun d => Fin.ext (by match d with | ⟨0, _⟩ => rfl)

theorem l66 (n : Fin 100000) (z : Fin 1) (k : Fin 32) : lidx_main_v66 (ix2 n z) k = ix2 n k :=
  funext fun d => Fin.ext (by match d with | ⟨0, _⟩ => rfl | ⟨1, _⟩ => rfl)

theorem r66 (n : Fin 100000) (z : Fin 1) (k : Fin 32) : idx_main_v65 (ridx_main_v66 (ix2 n z) k) = ix2 (0 : Fin 1) k :=
  funext fun d => Fin.ext (by
    match d with
    | ⟨0, _⟩ => show z.val = 0; have h := z.isLt; omega
    | ⟨1, _⟩ => rfl)

theorem b68 (n : Fin 100000) (z : Fin 1) : idx_main_v67 (idx_main_v68 (ix2 n z)) = ix1 (0 : Fin 1) :=
  funext fun d => Fin.ext (by match d with | ⟨0, _⟩ => rfl)

theorem i70 (n : S100000.Idx) : idx_main_v70 n = ix2 (n 0) (0 : Fin 1) :=
  funext fun d => Fin.ext (by
    match d with
    | ⟨0, _⟩ => exact Nat.div_one _
    | ⟨1, _⟩ => rfl)

/-! ### The first layer -/

/-- One summand of the first layer's neighbour product: the neighbour sum over the clamped count, times the left weight. -/
theorem s24 (i : S100000x64.Idx) (k : Fin 9) :
    val_main_v22 (F := Ideal) x0 x1 (lidx_main_v24 i k) * val_main_v23 (F := Ideal) x5 (ridx_main_v24 i k)
      = Ideal.div (val_main_v13 (F := Ideal) x0 x1 (ix2 (i 0) k)) (max (val_main_v17 (F := Ideal) x1 (ix1 (i 0))) one)
          * x5 (ix2 (i 1) k) := by
  rw [val_main_v22_apply, val_main_v21_apply, val_main_v20_apply, val_main_v19_apply, val_main_v18_apply,
    val_main_cst_3_apply, val_main_v23_apply, c24, l24, r24]
  rfl

/-- One summand of the first layer's root product. -/
theorem s29 (i : S100000x64.Idx) (k : Fin 9) :
    x0 (lidx_main_v29 i k) * val_main_v28 (F := Ideal) x7 (ridx_main_v29 i k) = x0 (ix2 (i 0) k) * x7 (ix2 (i 1) k) := by
  rw [val_main_v28_apply, l29, r29]
  rfl

/-- The reference's hidden layer at `(n, q)`: the SAGE row of node `n` against output feature `q`'s weights, clamped at zero. -/
theorem h1_at (i : S100000x64.Idx) :
    val_main_v31 (F := Ideal) x0 x1 x5 x6 x7 i
      = max (sageRow (fun k : Fin 9 => val_main_v13 (F := Ideal) x0 x1 (ix2 (i 0) k)) (val_main_v17 (F := Ideal) x1 (ix1 (i 0)))
          (fun k => x5 (ix2 (i 1) k)) (x6 (ix1 (i 1))) (fun k => x0 (ix2 (i 0) k)) (fun k => x7 (ix2 (i 1) k))) zero := by
  rw [val_main_v31_apply, val_main_v30_apply, val_main_v27_apply, val_main_v24_apply, val_main_v26_apply, val_main_v25_apply,
    val_main_v29_apply, val_main_call0_v0_apply, val_main_call0_cst_apply, b26,
    Finset.sum_congr rfl (fun k _ => s24 x0 x1 x5 i k), Finset.sum_congr rfl (fun k _ => s29 x0 x7 i k)]
  rfl

/-! ### The second layer and the readout -/

/-- One summand of the second layer's neighbour product. -/
theorem s52 (n : Fin 100000) (j a : Fin 64) :
    val_main_v50 (F := Ideal) x0 x1 x5 x6 x7 (lidx_main_v52 (ix2 n j) a) * val_main_v51 (F := Ideal) x8 (ridx_main_v52 (ix2 n j) a)
      = Ideal.div (val_main_v41 (F := Ideal) x0 x1 x5 x6 x7 (ix2 n a)) (max (val_main_v45 (F := Ideal) x1 (ix1 n)) one) * x8 (ix2 j a) := by
  rw [val_main_v50_apply, val_main_v49_apply, val_main_v48_apply, val_main_v47_apply, val_main_v46_apply,
    val_main_cst_9_apply, val_main_v51_apply, c52, l52, r52]
  rfl

/-- One summand of the second layer's root product: the hidden layer stays a named stage. -/
theorem s57 (n : Fin 100000) (j a : Fin 64) :
    val_main_v31 (F := Ideal) x0 x1 x5 x6 x7 (lidx_main_v57 (ix2 n j) a) * val_main_v56 (F := Ideal) x10 (ridx_main_v57 (ix2 n j) a)
      = val_main_v31 (F := Ideal) x0 x1 x5 x6 x7 (ix2 n a) * x10 (ix2 j a) := by
  rw [val_main_v56_apply, l57, r57]

/-- The second layer at `(n, j)`: one SAGE row over the 64 hidden features. -/
theorem v58_at (n : Fin 100000) (j : Fin 64) :
    val_main_v58 (F := Ideal) x0 x1 x5 x6 x7 x8 x9 x10 (ix2 n j)
      = sageRow (fun a : Fin 64 => val_main_v41 (F := Ideal) x0 x1 x5 x6 x7 (ix2 n a)) (val_main_v45 (F := Ideal) x1 (ix1 n))
          (fun a => x8 (ix2 j a)) (x9 (ix1 j)) (fun a => val_main_v31 (F := Ideal) x0 x1 x5 x6 x7 (ix2 n a)) (fun a => x10 (ix2 j a)) := by
  rw [val_main_v58_apply, val_main_v55_apply, val_main_v52_apply, val_main_v54_apply, val_main_v53_apply, val_main_v57_apply, b54,
    Finset.sum_congr rfl (fun a _ => s52 x0 x1 x5 x6 x7 x8 n j a), Finset.sum_congr rfl (fun a _ => s57 x0 x1 x5 x6 x7 x10 n j a)]
  rfl

/-- One summand of the first readout product. -/
theorem s60 (n : Fin 100000) (k : Fin 32) (j : Fin 64) :
    val_main_v58 (F := Ideal) x0 x1 x5 x6 x7 x8 x9 x10 (lidx_main_v60 (ix2 n k) j) * val_main_v59 (F := Ideal) x11 (ridx_main_v60 (ix2 n k) j)
      = sageRow (fun a : Fin 64 => val_main_v41 (F := Ideal) x0 x1 x5 x6 x7 (ix2 n a)) (val_main_v45 (F := Ideal) x1 (ix1 n))
          (fun a => x8 (ix2 j a)) (x9 (ix1 j)) (fun a => val_main_v31 (F := Ideal) x0 x1 x5 x6 x7 (ix2 n a)) (fun a => x10 (ix2 j a))
        * x11 (ix2 k j) := by
  rw [l60, v58_at, val_main_v59_apply, r60]

/-- The first readout layer at `(n, k)`, clamped at zero. -/
theorem v64_at (n : Fin 100000) (k : Fin 32) :
    val_main_v64 (F := Ideal) x0 x1 x5 x6 x7 x8 x9 x10 x11 x12 (ix2 n k)
      = max ((∑ j : Fin 64,
          sageRow (fun a : Fin 64 => val_main_v41 (F := Ideal) x0 x1 x5 x6 x7 (ix2 n a)) (val_main_v45 (F := Ideal) x1 (ix1 n))
            (fun a => x8 (ix2 j a)) (x9 (ix1 j)) (fun a => val_main_v31 (F := Ideal) x0 x1 x5 x6 x7 (ix2 n a)) (fun a => x10 (ix2 j a))
            * x11 (ix2 k j)) + x12 (ix1 k)) zero := by
  rw [val_main_v64_apply, val_main_v63_apply, val_main_v60_apply, val_main_v62_apply, val_main_v61_apply,
    val_main_call1_v0_apply, val_main_call1_cst_apply, b62,
    Finset.sum_congr rfl (fun j _ => s60 x0 x1 x5 x6 x7 x8 x9 x10 x11 n k j)]
  rfl

/-- One summand of the second readout product. -/
theorem s66 (n : Fin 100000) (z : Fin 1) (k : Fin 32) :
    val_main_v64 (F := Ideal) x0 x1 x5 x6 x7 x8 x9 x10 x11 x12 (lidx_main_v66 (ix2 n z) k) * val_main_v65 (F := Ideal) x13 (ridx_main_v66 (ix2 n z) k)
      = max ((∑ j : Fin 64,
          sageRow (fun a : Fin 64 => val_main_v41 (F := Ideal) x0 x1 x5 x6 x7 (ix2 n a)) (val_main_v45 (F := Ideal) x1 (ix1 n))
            (fun a => x8 (ix2 j a)) (x9 (ix1 j)) (fun a => val_main_v31 (F := Ideal) x0 x1 x5 x6 x7 (ix2 n a)) (fun a => x10 (ix2 j a))
            * x11 (ix2 k j)) + x12 (ix1 k)) zero
        * x13 (ix2 (0 : Fin 1) k) := by
  rw [l66, v64_at, val_main_v65_apply, r66]

/-- The reference's logit column at `(n, 0)`: the second SAGE layer (no clamp), the first readout layer clamped at zero, the
    second readout layer. -/
theorem logit_at (i : S100000x1.Idx) :
    val_main_v69 (F := Ideal) x0 x1 x5 x6 x7 x8 x9 x10 x11 x12 x13 x14 i
      = (∑ k : Fin 32,
          max ((∑ j : Fin 64,
              sageRow (fun a : Fin 64 => val_main_v41 (F := Ideal) x0 x1 x5 x6 x7 (ix2 (i 0) a)) (val_main_v45 (F := Ideal) x1 (ix1 (i 0)))
                (fun a => x8 (ix2 j a)) (x9 (ix1 j)) (fun a => val_main_v31 (F := Ideal) x0 x1 x5 x6 x7 (ix2 (i 0) a)) (fun a => x10 (ix2 j a))
                * x11 (ix2 k j)) + x12 (ix1 k)) zero
            * x13 (ix2 (0 : Fin 1) k)) + x14 (ix1 (0 : Fin 1)) := by
  obtain ⟨n, z, rfl⟩ : ∃ (n : Fin 100000) (z : Fin 1), i = ix2 n z := ⟨i 0, i 1, eq_ix2 i⟩
  rw [val_main_v69_apply, val_main_v66_apply, val_main_v68_apply, val_main_v67_apply, b68,
    Finset.sum_congr rfl (fun k _ => s66 x0 x1 x5 x6 x7 x8 x9 x10 x11 x12 x13 n z k)]
  rfl

/-- The reference's per-node value: the logistic function of the logit (jax spells it `1 / (1 + exp (-x))`). -/
theorem pi_at (n : S100000.Idx) :
    val_main_v76 (F := Ideal) x0 x1 x5 x6 x7 x8 x9 x10 x11 x12 x13 x14 n
      = Ideal.logistic (val_main_v69 (F := Ideal) x0 x1 x5 x6 x7 x8 x9 x10 x11 x12 x13 x14 (ix2 (n 0) (0 : Fin 1))) := by
  rw [val_main_v76_apply, val_main_v75_apply, val_main_cst_11_apply, val_main_v74_apply, val_main_v73_apply,
    val_main_cst_10_apply, val_main_v72_apply, val_main_v71_apply, val_main_v70_apply, i70,
    Ideal.hostDivf_def, Ideal.addf_def, Ideal.hostUnary_exp_def, Ideal.hostNegf_def, Ideal.negf_def, Ideal.ofBits_def,
    Ideal.ofBits_one_f32]
  rfl

end Cert.ReferenceIdeal.RefRead

end
-- ==== Proof.Region0.lean ====
/-
  The first pallas_call's result array, as one function of what the call finds in its operand arrays.

  The call walks 20 row blocks of 5000 nodes. At point `t` its body reads rows `5000 t … 5000 t + 4999` of the fused aggregate
  (columns 0..8 the neighbour sums, column 9 the in-degree) and of the node features, the whole transposed weights and the bias
  row, and writes rows `5000 t … 5000 t + 4999` of the result: entry `(n, q)` is the SAGE row of node `n` against feature `q`'s
  weights, clamped at zero — which is the reference's hidden layer at `(n, q)`, whatever the point, so the blocks are the
  restrictions of ONE whole-array function and the array ends holding it.
-/
import proofs.«415095_j82609400971333_3_alg».proof.Proof.Gen.KernelIdeal.Frame
import proofs.«415095_j82609400971333_3_alg».proof.Proof.Pay
import proofs.«415095_j82609400971333_3_alg».proof.Proof.SageCongr
import proofs.«415095_j82609400971333_3_alg».proof.Proof.RefRead
import Idealize.ShloMosaic.Lib.Pipeline.Value
import Idealize.ShloMosaic.Lib.ValueIdx

set_option maxRecDepth 16384

noncomputable section

namespace Cert.KernelIdeal.Region0

open Cert.KernelIdeal Cert.KernelIdeal.Gen Idealize.ShloMosaic Idealize.ShloMosaic.TcCoe Idealize.ShloMosaic.ValueIdx Idealize.SL.Sem
open Idealize.ShloMosaic.Pipeline (Dat)
open Cert.KernelIdeal.Pay (sageRow one zero pay0_apply sageRow_congr hz)

variable (V : (c : Dev nD) → (b : Ref sig .tc) → Buf (Elt Ideal) ((c : Thread nD τ).loc b))

/-- The printed index maps over the grid: the row-blocked windows are at block row `t`, the whole-array windows at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## Each window's block at a point, as entries of its array -/

/-- Window 0's block at point `t` is rows `5000 t …` of the fused aggregate. -/
theorem blk0_apply (c : Dev nD) (t : Fin cfg0.N) (x : S5000x10.Idx) (k : S100000x10.Idx)
    (hk0 : (k 0).val = 5000 * t.val + (x 0).val) (hk1 : (k 1).val = (x 1).val) :
    (iblk0 V c 0 t : Vec Ideal S5000x10 .f32) x = (V c main_v15 : S100000x10.Idx → Elt Ideal .f32) k := by
  obtain ⟨e0, e1, -⟩ := idx_facts t
  unfold iblk0
  rw [View.read_apply]
  show V c main_v15 _ = V c main_v15 _
  congr 1
  funext a
  apply Fin.ext
  match a with
  | ⟨0, _⟩ => show win0_0.index t 0 * 5000 + 1 * (x 0).val = (k 0).val; rw [e0, hk0]; omega
  | ⟨1, _⟩ => show win0_0.index t 1 * 10 + 1 * (x 1).val = (k 1).val; rw [e1, hk1]; omega

/-- Window 1's block at point `t` is rows `5000 t …` of the node features. -/
theorem blk1_apply (c : Dev nD) (t : Fin cfg0.N) (x : S5000x9.Idx) (k : S100000x9.Idx)
    (hk0 : (k 0).val = 5000 * t.val + (x 0).val) (hk1 : (k 1).val = (x 1).val) :
    (iblk0 V c 1 t : Vec Ideal S5000x9 .f32) x = (V c main_arg0 : S100000x9.Idx → Elt Ideal .f32) k := by
  obtain ⟨-, -, e0, e1, -⟩ := idx_facts t
  unfold iblk0
  rw [View.read_apply]
  show V c main_arg0 _ = V c main_arg0 _
  congr 1
  funext a
  apply Fin.ext
  match a with
  | ⟨0, _⟩ => show win0_1.index t 0 * 5000 + 1 * (x 0).val = (k 0).val; rw [e0, hk0]; omega
  | ⟨1, _⟩ => show win0_1.index t 1 * 9 + 1 * (x 1).val = (k 1).val; rw [e1, hk1]; omega

/-- Window 2's block at any point is the whole transposed left weights. -/
theorem blk2_apply (c : Dev nD) (t : Fin cfg0.N) (x : S9x64.Idx) :
    (iblk0 V c 2 t : Vec Ideal S9x64 .f32) x = (V c main_v17 : S9x64.Idx → Elt Ideal .f32) x := by
  obtain ⟨-, -, -, -, e0, e1, -⟩ := idx_facts t
  unfold iblk0
  rw [View.read_apply]
  show V c main_v17 _ = V c main_v17 _
  congr 1
  funext a
  apply Fin.ext
  match a with
  | ⟨0, _⟩ => show win0_2.index t 0 * 9 + 1 * (x 0).val = (x 0).val; rw [e0]; omega
  | ⟨1, _⟩ => show win0_2.index t 1 * 64 + 1 * (x 1).val = (x 1).val; rw [e1]; omega

/-- Window 3's block at any point is the whole bias row. -/
theorem blk3_apply (c : Dev nD) (t : Fin cfg0.N) (x : S1x64.Idx) :
    (iblk0 V c 3 t : Vec Ideal S1x64 .f32) x = (V c main_v19 : S1x64.Idx → Elt Ideal .f32) x := by
  obtain ⟨-, -, -, -, -, -, e0, e1, -⟩ := idx_facts t
  unfold iblk0
  rw [View.read_apply]
  show V c main_v19 _ = V c main_v19 _
  congr 1
  funext a
  apply Fin.ext
  match a with
  | ⟨0, _⟩ => show win0_3.index t 0 * 1 + 1 * (x 0).val = (x 0).val; rw [e0]; omega
  | ⟨1, _⟩ => show win0_3.index t 1 * 64 + 1 * (x 1).val = (x 1).val; rw [e1]; omega

/-- Window 4's block at any point is the whole transposed right weights. -/
theorem blk4_apply (c : Dev nD) (t : Fin cfg0.N) (x : S9x64.Idx) :
    (iblk0 V c 4 t : Vec Ideal S9x64 .f32) x = (V c main_v18 : S9x64.Idx → Elt Ideal .f32) x := by
  obtain ⟨-, -, -, -, -, -, -, -, e0, e1, -⟩ := idx_facts t
  unfold iblk0
  rw [View.read_apply]
  show V c main_v18 _ = V c main_v18 _
  congr 1
  funext a
  apply Fin.ext
  match a with
  | ⟨0, _⟩ => show win0_4.index t 0 * 9 + 1 * (x 0).val = (x 0).val; rw [e0]; omega
  | ⟨1, _⟩ => show win0_4.index t 1 * 64 + 1 * (x 1).val = (x 1).val; rw [e1]; omega

/-! ## What the call finds, related to the reference's stages -/

open Cert.ReferenceIdeal.Read in
/-- What the first call must find in its arrays for its result to be the reference's hidden layer: the fused aggregate's
    columns the reference's neighbour sums and in-degree, the node features, the weights transposed, the bias as a row. -/
structure Finds (c : Dev nD) (x0 : (⟨S100000x9, .f32⟩ : BufTy).Contents (Elt Ideal)) (x1 : (⟨S2x3200000, .i32⟩ : BufTy).Contents (Elt Ideal))
    (x5 : (⟨S64x9, .f32⟩ : BufTy).Contents (Elt Ideal)) (x6 : (⟨S64, .f32⟩ : BufTy).Contents (Elt Ideal))
    (x7 : (⟨S64x9, .f32⟩ : BufTy).Contents (Elt Ideal)) : Prop where
  msg : ∀ (n : Fin 100000) (k : Fin 9), (V c main_v15 : S100000x10.Idx → Elt Ideal .f32) (ix2 n (⟨k.val, by omega⟩ : Fin 10))
      = val_main_v13 (F := Ideal) x0 x1 (ix2 n k)
  cnt : ∀ n : Fin 100000, (V c main_v15 : S100000x10.Idx → Elt Ideal .f32) (ix2 n (9 : Fin 10)) = val_main_v17 (F := Ideal) x1 (ix1 n)
  feat : (V c main_arg0 : S100000x9.Idx → Elt Ideal .f32) = x0
  wl : ∀ (k : Fin 9) (q : Fin 64), (V c main_v17 : S9x64.Idx → Elt Ideal .f32) (ix2 k q) = x5 (ix2 q k)
  bias : ∀ q : Fin 64, (V c main_v19 : S1x64.Idx → Elt Ideal .f32) (ix2 (0 : Fin 1) q) = x6 (ix1 q)
  wr : ∀ (k : Fin 9) (q : Fin 64), (V c main_v18 : S9x64.Idx → Elt Ideal .f32) (ix2 k q) = x7 (ix2 q k)

section Point

open Cert.ReferenceIdeal.Read Cert.ReferenceIdeal.RefRead

variable {c : Dev nD} {x0 : (⟨S100000x9, .f32⟩ : BufTy).Contents (Elt Ideal)} {x1 : (⟨S2x3200000, .i32⟩ : BufTy).Contents (Elt Ideal)}
  {x5 : (⟨S64x9, .f32⟩ : BufTy).Contents (Elt Ideal)} {x6 : (⟨S64, .f32⟩ : BufTy).Contents (Elt Ideal)}
  {x7 : (⟨S64x9, .f32⟩ : BufTy).Contents (Elt Ideal)}

/-- The body's stored value at block entry `j` of point `t` is the reference's hidden layer at the array entry `i` under it. -/
theorem point (h : Finds V c x0 x1 x5 x6 x7) (t : Fin cfg0.N) (j : S5000x64.Idx) (i : S100000x64.Idx)
    (hi0 : (i 0).val = 5000 * t.val + (j 0).val) (hi1 : (i 1).val = (j 1).val) :
    k0_pay1 (View.ld (iblk0 V c 0 t) r0_0) (View.ld (iblk0 V c 0 t) r0_1) (iblk0 V c 1 t) (iblk0 V c 2 t) (iblk0 V c 4 t) (iblk0 V c 3 t) j
      = val_main_v31 (F := Ideal) x0 x1 x5 x6 x7 i := by
  have hq : (i 1 : Fin 64) = j 1 := Fin.ext hi1
  refine ((congrArg (k0_pay1 (View.ld (iblk0 V c 0 t) r0_0) (View.ld (iblk0 V c 0 t) r0_1) (iblk0 V c 1 t) (iblk0 V c 2 t)
      (iblk0 V c 4 t) (iblk0 V c 3 t)) (eq_ix2 j)).trans
    (pay0_apply (View.ld (iblk0 V c 0 t) r0_0) (View.ld (iblk0 V c 0 t) r0_1) (iblk0 V c 1 t) (iblk0 V c 2 t)
      (iblk0 V c 4 t) (iblk0 V c 3 t) (j 0) (j 1))).trans (Eq.trans ?_ (h1_at x0 x1 x5 x6 x7 i).symm)
  refine congrArg (max · zero) (sageRow_congr (fun k => ?_) ?_ (fun k => ?_) ?_ (fun k => ?_) (fun k => ?_))
  · -- a neighbour-sum entry
    refine (blk0_apply V c t _ (ix2 (i 0) (⟨k.val, by omega⟩ : Fin 10)) ?_ ?_).trans (h.msg (i 0) k)
    · show (i 0).val = 5000 * t.val + (0 + 1 * (j 0).val); omega
    · show k.val = 0 + 1 * k.val; omega
  · -- the in-degree
    refine (blk0_apply V c t _ (ix2 (i 0) (9 : Fin 10)) ?_ ?_).trans (h.cnt (i 0))
    · show (i 0).val = 5000 * t.val + (0 + 1 * (j 0).val); omega
    · show 9 = 9 + 1 * 0; omega
  · -- a left weight
    rw [blk2_apply V c t, h.wl k (j 1), hq]
  · -- the bias
    rw [blk3_apply V c t, h.bias (j 1), hq]
  · -- a feature of the node itself
    refine (blk1_apply V c t _ (ix2 (i 0) k) hi0 rfl).trans ?_
    rw [h.feat]
  · -- a right weight
    rw [blk4_apply V c t, h.wr k (j 1), hq]

end Point

/-! ## From the blocks to the array -/

section Array

open Cert.ReferenceIdeal.Read

variable {c : Dev nD} {x0 : (⟨S100000x9, .f32⟩ : BufTy).Contents (Elt Ideal)} {x1 : (⟨S2x3200000, .i32⟩ : BufTy).Contents (Elt Ideal)}
  {x5 : (⟨S64x9, .f32⟩ : BufTy).Contents (Elt Ideal)} {x6 : (⟨S64, .f32⟩ : BufTy).Contents (Elt Ideal)}
  {x7 : (⟨S64x9, .f32⟩ : BufTy).Contents (Elt Ideal)}

/-- What point `t` writes back is block `t` of the reference's hidden layer. -/
theorem flushed_eq (h : Finds V c x0 x1 x5 x6 x7) (t : Fin cfg0.N) :
    (dat0 V c).flushed 5 t = ((cfg0.win 5).blk t).view.read (Elt Ideal) (val_main_v31 (F := Ideal) x0 x1 x5 x6 x7) := by
  show (cfg0.win 5).cut (grid0.coords t) ((dat0 V c).after 5 t) = _
  rw [after0_5]
  unfold out0_5
  rw [View.canon_unit_zero hz]
  simp only [View.ld_unit_zero (S := S5000x9) hz, View.ld_unit_zero (S := S9x64) hz, View.ld_unit_zero (S := S1x64) hz]
  obtain ⟨-, -, -, -, -, -, -, -, -, -, e0, e1⟩ := idx_facts t
  funext j
  -- the whole-array function stays a name while the block read is opened: its body is never unfolded
  generalize hG : val_main_v31 (F := Ideal) x0 x1 x5 x6 x7 = G
  rw [View.read_apply]
  refine Eq.trans ?_ (cast_eq _ _).symm
  rw [← hG]
  refine point V h t j _ ?_ ?_
  · show win0_5.index t 0 * 5000 + 1 * (j 0).val = 5000 * t.val + (j 0).val; rw [e0]; omega
  · show win0_5.index t 1 * 64 + 1 * (j 1).val = (j 1).val; rw [e1]; omega

/-- An index of the result array is in point `t`'s block iff its row is among the block's 5000 rows. -/
theorem mem_blk (t : Fin cfg0.N) (i : S100000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole main_v20).slice (win0_5.rect t)).set ↔ _
  rw [View.set_slice_whole, Rect.mem_set_unit]
  exact Iff.rfl

/-- Every entry of the result array lies in some point's block: row `n` in the block of point `n / 5000`. -/
theorem cover (i : S100000x64.Idx) : ∃ t : Fin cfg0.N, (cfg0.win 5).flush t = true ∧ i ∈ ((cfg0.win 5).blk t).view.set := by
  have hi0 : (i 0).val < 100000 := (i 0).isLt
  have hi1 : (i 1).val < 64 := (i 1).isLt
  refine ⟨⟨(i 0).val / 5000, by rw [show cfg0.N = 20 from N_0]; omega⟩, flush0_5 _, ?_⟩
  rw [mem_blk]
  obtain ⟨-, -, -, -, -, -, -, -, -, -, e0, e1⟩ := idx_facts ⟨(i 0).val / 5000, by rw [show cfg0.N = 20 from N_0]; omega⟩
  intro a
  match a with
  | ⟨0, _⟩ => show win0_5.index _ 0 * 5000 ≤ (i 0).val ∧ (i 0).val < win0_5.index _ 0 * 5000 + 5000; rw [e0]; dsimp only; omega
  | ⟨1, _⟩ => show win0_5.index _ 1 * 64 ≤ (i 1).val ∧ (i 1).val < win0_5.index _ 1 * 64 + 64; rw [e1]; omega

/-- THE RESULT ARRAY after the call is the reference's hidden layer. -/
theorem final (h : Finds V c x0 x1 x5 x6 x7) :
    (dat0 V c).arrAt 5 cfg0.N = val_main_v31 (F := Ideal) x0 x1 x5 x6 x7 :=
  (dat0 V c).arrAt_eq_of_cover 5 _ (fun t _ => flushed_eq V h t) cover

end Array

end Cert.KernelIdeal.Region0

end
-- ==== Proof.Region1.lean ====
/-
  The second pallas_call's result column, as one function of what the call finds in its operand arrays.

  The call walks 20 row blocks of 5000 nodes. At point `t` its body reads rows `5000 t … 5000 t + 4999` of the layer-two aggregate
  (columns 0..63 the neighbour sums of the hidden rows, column 64 the in-degree) and of the hidden layer, the whole transposed
  weights and bias rows of the second SAGE layer and of the two readout layers, and writes rows `5000 t … 5000 t + 4999` of the
  result column: entry `(n, 0)` is the logistic function of node `n`'s logit — the second SAGE row against each hidden
  feature's weights, through the first readout layer clamped at zero, through the second —, which is the reference's logit at
  `(n, 0)` under the logistic function, whatever the point: the blocks are the restrictions of ONE whole-array function and the
  array ends holding it.
-/
import proofs.«415095_j82609400971333_3_alg».proof.Proof.Gen.KernelIdeal.Frame
import proofs.«415095_j82609400971333_3_alg».proof.Proof.Pay
import proofs.«415095_j82609400971333_3_alg».proof.Proof.SageCongr
import proofs.«415095_j82609400971333_3_alg».proof.Proof.RefRead
import Idealize.ShloMosaic.Lib.Pipeline.Value
import Idealize.ShloMosaic.Lib.ValueIdx

set_option maxRecDepth 16384

noncomputable section

namespace Cert.KernelIdeal.Region1

open Cert.KernelIdeal Cert.KernelIdeal.Gen Idealize.ShloMosaic Idealize.ShloMosaic.TcCoe Idealize.ShloMosaic.ValueIdx Idealize.SL.Sem
open Idealize.ShloMosaic.Pipeline (Dat)
open Cert.KernelIdeal.Pay (sageRow one zero pay1_apply sageRow_congr hz)

variable (V : (c : Dev nD) → (b : Ref sig .tc) → Buf (Elt Ideal) ((c : Thread nD τ).loc b))

/-- The printed index maps over the grid: the row-blocked windows (0, 1, 9) are at block row `t`, the others at block 0. -/
theorem idx_facts : ∀ t : Fin cfg1.N,
    win1_0.index t (0 : Fin 2) = t.val
    ∧ win1_0.index t (1 : Fin 2) = 0
    ∧ win1_1.index t (0 : Fin 2) = t.val
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = 0
    ∧ win1_7.index t (1 : Fin 2) = 0
    ∧ win1_8.index t (0 : Fin 2) = 0
    ∧ win1_8.index t (1 : Fin 2) = 0
    ∧ win1_9.index t (0 : Fin 2) = t.val
    ∧ win1_9.index t (1 : Fin 2) = 0 :=
  (by decide +kernel : ∀ t : Fin grid1.N, _)

/-! ## Each window's block at a point, as entries of its array -/

/-- Window 0's block at point `t` is rows `5000 t …` of the layer-two aggregate. -/
theorem blk0_apply (c : Dev nD) (t : Fin cfg1.N) (x : S5000x65.Idx) (k : S100000x65.Idx)
    (hk0 : (k 0).val = 5000 * t.val + (x 0).val) (hk1 : (k 1).val = (x 1).val) :
    (iblk1 V c 0 t : Vec Ideal S5000x65 .f32) x = (V c main_v31 : S100000x65.Idx → Elt Ideal .f32) k := by
  have e := idx_facts t
  unfold iblk1
  rw [View.read_apply]
  show V c main_v31 _ = V c main_v31 _
  congr 1
  funext a
  apply Fin.ext
  match a with
  | ⟨0, _⟩ => show win1_0.index t 0 * 5000 + 1 * (x 0).val = (k 0).val; rw [e.1, hk0]; omega
  | ⟨1, _⟩ => show win1_0.index t 1 * 65 + 1 * (x 1).val = (k 1).val; rw [e.2.1, hk1]; omega

/-- Window 1's block at point `t` is rows `5000 t …` of the hidden layer. -/
theorem blk1_apply (c : Dev nD) (t : Fin cfg1.N) (x : S5000x64.Idx) (k : S100000x64.Idx)
    (hk0 : (k 0).val = 5000 * t.val + (x 0).val) (hk1 : (k 1).val = (x 1).val) :
    (iblk1 V c 1 t : Vec Ideal S5000x64 .f32) x = (V c main_v20 : S100000x64.Idx → Elt Ideal .f32) k := by
  have e := idx_facts t
  unfold iblk1
  rw [View.read_apply]
  show V c main_v20 _ = V c main_v20 _
  congr 1
  funext a
  apply Fin.ext
  match a with
  | ⟨0, _⟩ => show win1_1.index t 0 * 5000 + 1 * (x 0).val = (k 0).val; rw [e.2.2.1, hk0]; omega
  | ⟨1, _⟩ => show win1_1.index t 1 * 64 + 1 * (x 1).val = (k 1).val; rw [e.2.2.2.1, hk1]; omega

/-- Window 2's block at any point is the whole transposed left weights. -/
theorem blk2_apply (c : Dev nD) (t : Fin cfg1.N) (x : S64x64.Idx) :
    (iblk1 V c 2 t : Vec Ideal S64x64 .f32) x = (V c main_v32 : S64x64.Idx → Elt Ideal .f32) x := by
  have e := idx_facts t
  unfold iblk1
  rw [View.read_apply]
  show V c main_v32 _ = V c main_v32 _
  congr 1
  funext a
  apply Fin.ext
  match a with
  | ⟨0, _⟩ => show win1_2.index t 0 * 64 + 1 * (x 0).val = (x 0).val; rw [e.2.2.2.2.1]; omega
  | ⟨1, _⟩ => show win1_2.index t 1 * 64 + 1 * (x 1).val = (x 1).val; rw [e.2.2.2.2.2.1]; omega

/-- Window 3's block at any point is the whole bias row. -/
theorem blk3_apply (c : Dev nD) (t : Fin cfg1.N) (x : S1x64.Idx) :
    (iblk1 V c 3 t : Vec Ideal S1x64 .f32) x = (V c main_v36 : S1x64.Idx → Elt Ideal .f32) x := by
  have e := idx_facts t
  unfold iblk1
  rw [View.read_apply]
  show V c main_v36 _ = V c main_v36 _
  congr 1
  funext a
  apply Fin.ext
  match a with
  | ⟨0, _⟩ => show win1_3.index t 0 * 1 + 1 * (x 0).val = (x 0).val; rw [e.2.2.2.2.2.2.1]; omega
  | ⟨1, _⟩ => show win1_3.index t 1 * 64 + 1 * (x 1).val = (x 1).val; rw [e.2.2.2.2.2.2.2.1]; omega

/-- Window 4's block at any point is the whole transposed right weights. -/
theorem blk4_apply (c : Dev nD) (t : Fin cfg1.N) (x : S64x64.Idx) :
    (iblk1 V c 4 t : Vec Ideal S64x64 .f32) x = (V c main_v33 : S64x64.Idx → Elt Ideal .f32) x := by
  have e := idx_facts t
  unfold iblk1
  rw [View.read_apply]
  show V c main_v33 _ = V c main_v33 _
  congr 1
  funext a
  apply Fin.ext
  match a with
  | ⟨0, _⟩ => show win1_4.index t 0 * 64 + 1 * (x 0).val = (x 0).val; rw [e.2.2.2.2.2.2.2.2.1]; omega
  | ⟨1, _⟩ => show win1_4.index t 1 * 64 + 1 * (x 1).val = (x 1).val; rw [e.2.2.2.2.2.2.2.2.2.1]; omega

/-- Window 5's block at any point is the whole transposed first readout weights. -/
theorem blk5_apply (c : Dev nD) (t : Fin cfg1.N) (x : S64x32.Idx) :
    (iblk1 V c 5 t : Vec Ideal S64x32 .f32) x = (V c main_v34 : S64x32.Idx → Elt Ideal .f32) x := by
  have e := idx_facts t
  unfold iblk1
  rw [View.read_apply]
  show V c main_v34 _ = V c main_v34 _
  congr 1
  funext a
  apply Fin.ext
  match a with
  | ⟨0, _⟩ => show win1_5.index t 0 * 64 + 1 * (x 0).val = (x 0).val; rw [e.2.2.2.2.2.2.2.2.2.2.1]; omega
  | ⟨1, _⟩ => show win1_5.index t 1 * 32 + 1 * (x 1).val = (x 1).val; rw [e.2.2.2.2.2.2.2.2.2.2.2.1]; omega

/-- Window 6's block at any point is the whole first readout bias row. -/
theorem blk6_apply (c : Dev nD) (t : Fin cfg1.N) (x : S1x32.Idx) :
    (iblk1 V c 6 t : Vec Ideal S1x32 .f32) x = (V c main_v37 : S1x32.Idx → Elt Ideal .f32) x := by
  have e := idx_facts t
  unfold iblk1
  rw [View.read_apply]
  show V c main_v37 _ = V c main_v37 _
  congr 1
  funext a
  apply Fin.ext
  match a with
  | ⟨0, _⟩ => show win1_6.index t 0 * 1 + 1 * (x 0).val = (x 0).val; rw [e.2.2.2.2.2.2.2.2.2.2.2.2.1]; omega
  | ⟨1, _⟩ => show win1_6.index t 1 * 32 + 1 * (x 1).val = (x 1).val; rw [e.2.2.2.2.2.2.2.2.2.2.2.2.2.1]; omega

/-- Window 7's block at any point is the whole transposed second readout weights. -/
theorem blk7_apply (c : Dev nD) (t : Fin cfg1.N) (x : S32x1.Idx) :
    (iblk1 V c 7 t : Vec Ideal S32x1 .f32) x = (V c main_v35 : S32x1.Idx → Elt Ideal .f32) x := by
  have e := idx_facts t
  unfold iblk1
  rw [View.read_apply]
  show V c main_v35 _ = V c main_v35 _
  congr 1
  funext a
  apply Fin.ext
  match a with
  | ⟨0, _⟩ => show win1_7.index t 0 * 32 + 1 * (x 0).val = (x 0).val; rw [e.2.2.2.2.2.2.2.2.2.2.2.2.2.2.1]; omega
  | ⟨1, _⟩ => show win1_7.index t 1 * 1 + 1 * (x 1).val = (x 1).val; rw [e.2.2.2.2.2.2.2.2.2.2.2.2.2.2.2.1]; omega

/-- Window 8's block at any point is the second readout bias. -/
theorem blk8_apply (c : Dev nD) (t : Fin cfg1.N) (x : S1x1.Idx) :
    (iblk1 V c 8 t : Vec Ideal S1x1 .f32) x = (V c main_v38 : S1x1.Idx → Elt Ideal .f32) x := by
  have e := idx_facts t
  unfold iblk1
  rw [View.read_apply]
  show V c main_v38 _ = V c main_v38 _
  congr 1
  funext a
  apply Fin.ext
  match a with
  | ⟨0, _⟩ => show win1_8.index t 0 * 1 + 1 * (x 0).val = (x 0).val; rw [e.2.2.2.2.2.2.2.2.2.2.2.2.2.2.2.2.1]; omega
  | ⟨1, _⟩ => show win1_8.index t 1 * 1 + 1 * (x 1).val = (x 1).val; rw [e.2.2.2.2.2.2.2.2.2.2.2.2.2.2.2.2.2.1]; omega

/-! ## What the call finds, related to the reference's stages -/

open Cert.ReferenceIdeal.Read in
/-- What the second call must find in its arrays for its result to be the reference's per-node value: the layer-two aggregate's
    columns the reference's layer-two neighbour sums and in-degree, the hidden layer the reference's, the weights transposed,
    the biases as rows. -/
structure Finds (c : Dev nD) (x0 : (⟨S100000x9, .f32⟩ : BufTy).Contents (Elt Ideal)) (x1 : (⟨S2x3200000, .i32⟩ : BufTy).Contents (Elt Ideal))
    (x5 : (⟨S64x9, .f32⟩ : BufTy).Contents (Elt Ideal)) (x6 : (⟨S64, .f32⟩ : BufTy).Contents (Elt Ideal))
    (x7 : (⟨S64x9, .f32⟩ : BufTy).Contents (Elt Ideal)) (x8 : (⟨S64x64, .f32⟩ : BufTy).Contents (Elt Ideal))
    (x9 : (⟨S64, .f32⟩ : BufTy).Contents (Elt Ideal)) (x10 : (⟨S64x64, .f32⟩ : BufTy).Contents (Elt Ideal))
    (x11 : (⟨S32x64, .f32⟩ : BufTy).Contents (Elt Ideal)) (x12 : (⟨S32, .f32⟩ : BufTy).Contents (Elt Ideal))
    (x13 : (⟨S1x32, .f32⟩ : BufTy).Contents (Elt Ideal)) (x14 : (⟨S1, .f32⟩ : BufTy).Contents (Elt Ideal)) : Prop where
  msg : ∀ (n : Fin 100000) (k : Fin 64), (V c main_v31 : S100000x65.Idx → Elt Ideal .f32) (ix2 n (⟨k.val, by omega⟩ : Fin 65))
      = val_main_v41 (F := Ideal) x0 x1 x5 x6 x7 (ix2 n k)
  cnt : ∀ n : Fin 100000, (V c main_v31 : S100000x65.Idx → Elt Ideal .f32) (ix2 n (64 : Fin 65)) = val_main_v45 (F := Ideal) x1 (ix1 n)
  hid : (V c main_v20 : S100000x64.Idx → Elt Ideal .f32) = val_main_v31 (F := Ideal) x0 x1 x5 x6 x7
  wl : ∀ (a j : Fin 64), (V c main_v32 : S64x64.Idx → Elt Ideal .f32) (ix2 a j) = x8 (ix2 j a)
  bias : ∀ j : Fin 64, (V c main_v36 : S1x64.Idx → Elt Ideal .f32) (ix2 (0 : Fin 1) j) = x9 (ix1 j)
  wr : ∀ (a j : Fin 64), (V c main_v33 : S64x64.Idx → Elt Ideal .f32) (ix2 a j) = x10 (ix2 j a)
  w1 : ∀ (j : Fin 64) (k : Fin 32), (V c main_v34 : S64x32.Idx → Elt Ideal .f32) (ix2 j k) = x11 (ix2 k j)
  b1 : ∀ k : Fin 32, (V c main_v37 : S1x32.Idx → Elt Ideal .f32) (ix2 (0 : Fin 1) k) = x12 (ix1 k)
  w2 : ∀ k : Fin 32, (V c main_v35 : S32x1.Idx → Elt Ideal .f32) (ix2 k (0 : Fin 1)) = x13 (ix2 (0 : Fin 1) k)
  b2 : (V c main_v38 : S1x1.Idx → Elt Ideal .f32) (ix2 (0 : Fin 1) (0 : Fin 1)) = x14 (ix1 (0 : Fin 1))

section Point

open Cert.ReferenceIdeal.Read Cert.ReferenceIdeal.RefRead

variable {c : Dev nD} {x0 : (⟨S100000x9, .f32⟩ : BufTy).Contents (Elt Ideal)} {x1 : (⟨S2x3200000, .i32⟩ : BufTy).Contents (Elt Ideal)}
  {x5 : (⟨S64x9, .f32⟩ : BufTy).Contents (Elt Ideal)} {x6 : (⟨S64, .f32⟩ : BufTy).Contents (Elt Ideal)}
  {x7 : (⟨S64x9, .f32⟩ : BufTy).Contents (Elt Ideal)} {x8 : (⟨S64x64, .f32⟩ : BufTy).Contents (Elt Ideal)}
  {x9 : (⟨S64, .f32⟩ : BufTy).Contents (Elt Ideal)} {x10 : (⟨S64x64, .f32⟩ : BufTy).Contents (Elt Ideal)}
  {x11 : (⟨S32x64, .f32⟩ : BufTy).Contents (Elt Ideal)} {x12 : (⟨S32, .f32⟩ : BufTy).Contents (Elt Ideal)}
  {x13 : (⟨S1x32, .f32⟩ : BufTy).Contents (Elt Ideal)} {x14 : (⟨S1, .f32⟩ : BufTy).Contents (Elt Ideal)}

/-- The whole-array function the second call's result column ends holding: the logistic function of the reference's logit. -/
def piCol (x0 : (⟨S100000x9, .f32⟩ : BufTy).Contents (Elt Ideal)) (x1 : (⟨S2x3200000, .i32⟩ : BufTy).Contents (Elt Ideal))
    (x5 : (⟨S64x9, .f32⟩ : BufTy).Contents (Elt Ideal)) (x6 : (⟨S64, .f32⟩ : BufTy).Contents (Elt Ideal))
    (x7 : (⟨S64x9, .f32⟩ : BufTy).Contents (Elt Ideal)) (x8 : (⟨S64x64, .f32⟩ : BufTy).Contents (Elt Ideal))
    (x9 : (⟨S64, .f32⟩ : BufTy).Contents (Elt Ideal)) (x10 : (⟨S64x64, .f32⟩ : BufTy).Contents (Elt Ideal))
    (x11 : (⟨S32x64, .f32⟩ : BufTy).Contents (Elt Ideal)) (x12 : (⟨S32, .f32⟩ : BufTy).Contents (Elt Ideal))
    (x13 : (⟨S1x32, .f32⟩ : BufTy).Contents (Elt Ideal)) (x14 : (⟨S1, .f32⟩ : BufTy).Contents (Elt Ideal)) :
    S100000x1.Idx → Elt Ideal .f32 :=
  fun i => Ideal.logistic (val_main_v69 (F := Ideal) x0 x1 x5 x6 x7 x8 x9 x10 x11 x12 x13 x14 i)

/-- The body's stored value at block entry `j` of point `t` is the logistic function of the reference's logit at the array entry
    `i` under it. -/
theorem point (h : Finds V c x0 x1 x5 x6 x7 x8 x9 x10 x11 x12 x13 x14) (t : Fin cfg1.N) (j : S5000x1.Idx) (i : S100000x1.Idx)
    (hi0 : (i 0).val = 5000 * t.val + (j 0).val) :
    k1_pay1 (k1_pay2 (View.ld (iblk1 V c 0 t) r1_0) (View.ld (iblk1 V c 0 t) r1_1) (iblk1 V c 1 t) (iblk1 V c 2 t) (iblk1 V c 4 t)
        (iblk1 V c 3 t) (iblk1 V c 5 t) (iblk1 V c 6 t)) (iblk1 V c 7 t) (iblk1 V c 8 t) j
      = piCol x0 x1 x5 x6 x7 x8 x9 x10 x11 x12 x13 x14 i := by
  have h1 : (j 1).val = 0 := Nat.lt_one_iff.mp (j 1).isLt
  have hj : j = ix2 (j 0) (0 : Fin 1) := funext fun a => match a with
    | ⟨0, _⟩ => rfl
    | ⟨1, _⟩ => Fin.ext h1
  unfold piCol
  refine ((congrArg (k1_pay1 (k1_pay2 (View.ld (iblk1 V c 0 t) r1_0) (View.ld (iblk1 V c 0 t) r1_1) (iblk1 V c 1 t) (iblk1 V c 2 t)
        (iblk1 V c 4 t) (iblk1 V c 3 t) (iblk1 V c 5 t) (iblk1 V c 6 t)) (iblk1 V c 7 t) (iblk1 V c 8 t)) hj).trans
    (pay1_apply (View.ld (iblk1 V c 0 t) r1_0) (View.ld (iblk1 V c 0 t) r1_1) (iblk1 V c 1 t) (iblk1 V c 2 t)
        (iblk1 V c 4 t) (iblk1 V c 3 t) (iblk1 V c 5 t) (iblk1 V c 6 t) (iblk1 V c 7 t) (iblk1 V c 8 t) (j 0))).trans
    (Eq.trans ?_ (congrArg Ideal.logistic (logit_at x0 x1 x5 x6 x7 x8 x9 x10 x11 x12 x13 x14 i)).symm)
  refine congrArg Ideal.logistic (congrArg₂ (· + ·) (Finset.sum_congr rfl fun k _ => congrArg₂ (· * ·)
    (congrArg (max · zero) (congrArg₂ (· + ·) (Finset.sum_congr rfl fun q _ => congrArg₂ (· * ·)
      (sageRow_congr (fun a => ?_) ?_ (fun a => ?_) ?_ (fun a => ?_) (fun a => ?_)) ?_) ?_)) ?_) ?_)
  · -- a layer-two neighbour-sum entry
    refine (blk0_apply V c t _ (ix2 (i 0) (⟨a.val, by omega⟩ : Fin 65)) ?_ ?_).trans (h.msg (i 0) a)
    · show (i 0).val = 5000 * t.val + (0 + 1 * (j 0).val); omega
    · show a.val = 0 + 1 * a.val; omega
  · -- the in-degree
    refine (blk0_apply V c t _ (ix2 (i 0) (64 : Fin 65)) ?_ ?_).trans (h.cnt (i 0))
    · show (i 0).val = 5000 * t.val + (0 + 1 * (j 0).val); omega
    · show 64 = 64 + 1 * 0; omega
  · rw [blk2_apply V c t, h.wl a q]
  · rw [blk3_apply V c t, h.bias q]
  · -- a hidden feature of the node itself
    refine (blk1_apply V c t _ (ix2 (i 0) a) hi0 rfl).trans ?_
    rw [h.hid]
  · rw [blk4_apply V c t, h.wr a q]
  · rw [blk5_apply V c t, h.w1 q k]
  · rw [blk6_apply V c t, h.b1 k]
  · rw [blk7_apply V c t, h.w2 k]
  · rw [blk8_apply V c t, h.b2]

end Point

/-! ## From the blocks to the array -/

section Array

open Cert.ReferenceIdeal.Read

variable {c : Dev nD} {x0 : (⟨S100000x9, .f32⟩ : BufTy).Contents (Elt Ideal)} {x1 : (⟨S2x3200000, .i32⟩ : BufTy).Contents (Elt Ideal)}
  {x5 : (⟨S64x9, .f32⟩ : BufTy).Contents (Elt Ideal)} {x6 : (⟨S64, .f32⟩ : BufTy).Contents (Elt Ideal)}
  {x7 : (⟨S64x9, .f32⟩ : BufTy).Contents (Elt Ideal)} {x8 : (⟨S64x64, .f32⟩ : BufTy).Contents (Elt Ideal)}
  {x9 : (⟨S64, .f32⟩ : BufTy).Contents (Elt Ideal)} {x10 : (⟨S64x64, .f32⟩ : BufTy).Contents (Elt Ideal)}
  {x11 : (⟨S32x64, .f32⟩ : BufTy).Contents (Elt Ideal)} {x12 : (⟨S32, .f32⟩ : BufTy).Contents (Elt Ideal)}
  {x13 : (⟨S1x32, .f32⟩ : BufTy).Contents (Elt Ideal)} {x14 : (⟨S1, .f32⟩ : BufTy).Contents (Elt Ideal)}

/-- What point `t` writes back is block `t` of the per-node value column. -/
theorem flushed_eq (h : Finds V c x0 x1 x5 x6 x7 x8 x9 x10 x11 x12 x13 x14) (t : Fin cfg1.N) :
    (dat1 V c).flushed 9 t = ((cfg1.win 9).blk t).view.read (Elt Ideal) (piCol x0 x1 x5 x6 x7 x8 x9 x10 x11 x12 x13 x14) := by
  show (cfg1.win 9).cut (grid1.coords t) ((dat1 V c).after 9 t) = _
  rw [after1_9]
  unfold out1_9
  rw [View.canon_unit_zero hz]
  simp only [View.ld_unit_zero (S := S5000x64) hz, View.ld_unit_zero (S := S64x64) hz, View.ld_unit_zero (S := S1x64) hz,
    View.ld_unit_zero (S := S64x32) hz, View.ld_unit_zero (S := S1x32) hz, View.ld_unit_zero (S := S32x1) hz,
    View.ld_unit_zero (S := S1x1) hz]
  have e := idx_facts t
  funext j
  -- the whole-array function stays a name while the block read is opened: its body is never unfolded
  generalize hG : piCol x0 x1 x5 x6 x7 x8 x9 x10 x11 x12 x13 x14 = G
  rw [View.read_apply]
  refine Eq.trans ?_ (cast_eq _ _).symm
  rw [← hG]
  refine point V h t j _ ?_
  show win1_9.index t 0 * 5000 + 1 * (j 0).val = 5000 * t.val + (j 0).val; rw [e.2.2.2.2.2.2.2.2.2.2.2.2.2.2.2.2.2.2.1]; omega

/-- An index of the result column is in point `t`'s block iff its row is among the block's 5000 rows. -/
theorem mem_blk (t : Fin cfg1.N) (i : S100000x1.Idx) :
    i ∈ ((cfg1.win 9).blk t).view.set ↔ ∀ a : Fin 2, win1_9.index t a * S5000x1.size a ≤ (i a).val ∧ (i a).val < win1_9.index t a * S5000x1.size a + S5000x1.size a := by
  show i ∈ ((View.whole main_v39).slice (win1_9.rect t)).set ↔ _
  rw [View.set_slice_whole, Rect.mem_set_unit]
  exact Iff.rfl

/-- Every entry of the result column lies in some point's block: row `n` in the block of point `n / 5000`. -/
theorem cover (i : S100000x1.Idx) : ∃ t : Fin cfg1.N, (cfg1.win 9).flush t = true ∧ i ∈ ((cfg1.win 9).blk t).view.set := by
  have hi0 : (i 0).val < 100000 := (i 0).isLt
  have hi1 : (i 1).val < 1 := (i 1).isLt
  refine ⟨⟨(i 0).val / 5000, by rw [show cfg1.N = 20 from N_1]; omega⟩, flush1_9 _, ?_⟩
  rw [mem_blk]
  have e := idx_facts ⟨(i 0).val / 5000, by rw [show cfg1.N = 20 from N_1]; omega⟩
  intro a
  match a with
  | ⟨0, _⟩ => show win1_9.index _ 0 * 5000 ≤ (i 0).val ∧ (i 0).val < win1_9.index _ 0 * 5000 + 5000; rw [e.2.2.2.2.2.2.2.2.2.2.2.2.2.2.2.2.2.2.1]; dsimp only; omega
  | ⟨1, _⟩ => show win1_9.index _ 1 * 1 ≤ (i 1).val ∧ (i 1).val < win1_9.index _ 1 * 1 + 1; rw [e.2.2.2.2.2.2.2.2.2.2.2.2.2.2.2.2.2.2.2]; omega

/-- THE RESULT COLUMN after the call: the logistic function of the reference's logit. -/
theorem final (h : Finds V c x0 x1 x5 x6 x7 x8 x9 x10 x11 x12 x13 x14) :
    (dat1 V c).arrAt 9 cfg1.N = piCol x0 x1 x5 x6 x7 x8 x9 x10 x11 x12 x13 x14 :=
  (dat1 V c).arrAt_eq_of_cover 9 _ (fun t _ => flushed_eq V h t) cover

end Array

end Cert.KernelIdeal.Region1

end
-- ==== Proof.Final.lean ====
/-
  The kernel program's result buffer is the reference's result, as one term of the arguments.

  The chain: the first host stretch builds the fused aggregate, whose columns are the reference's neighbour sums and in-degree
  (a row scatter-add sees its columns apart); so the first call leaves the reference's hidden layer; the second host stretch
  gathers and sums that hidden layer exactly as the reference does and sets the in-degree column beside it; so the second call
  leaves the logistic function of the reference's logit, which is the reference's per-node value (jax's `1 / (1 + exp (-x))`);
  the last stretch divides each graph's budget by the graph's total plus a small constant, caps it at one and reads it back at
  each node's graph — the reference reads the budget and the total back first and divides after, and a gather commutes with
  an entrywise operation.
-/
import proofs.«415095_j82609400971333_3_alg».proof.Proof.KRun
import proofs.«415095_j82609400971333_3_alg».proof.Proof.HostV1
import proofs.«415095_j82609400971333_3_alg».proof.Proof.HostV1b
import proofs.«415095_j82609400971333_3_alg».proof.Proof.HostV3
import proofs.«415095_j82609400971333_3_alg».proof.Proof.HostV3b
import proofs.«415095_j82609400971333_3_alg».proof.Proof.Comb
import proofs.«415095_j82609400971333_3_alg».proof.Proof.Region0
import proofs.«415095_j82609400971333_3_alg».proof.Proof.Region1
import proofs.«415095_j82609400971333_3_alg».proof.Proof.RefRead
import Idealize.ShloMosaic.Lib.Pipeline.Value
import Idealize.ShloMosaic.Lib.ValueIdx

set_option maxRecDepth 16384

noncomputable section

namespace Cert.Bridge

open Cert.KernelIdeal Cert.KernelIdeal.Gen Cert.KernelIdeal.HostVals Idealize.ShloMosaic Idealize.ShloMosaic.TcCoe
  Idealize.ShloMosaic.ValueIdx Idealize.SL.Sem
open Cert.ReferenceIdeal.Read Cert.ReferenceIdeal.RefRead

variable (m : (ℓ : Loc nD τ sig) → Buf (Elt Ideal) ℓ) (ρ : Dev nD → PrngReg) (c : Dev nD)

/-- The launch contents of @main's arguments on core `c`. -/
abbrev a0 : S100000x9.Idx → Elt Ideal .f32 := m ((c : Thread nD τ).loc main_arg0)
abbrev a1 : S2x3200000.Idx → Elt Ideal .i32 := m ((c : Thread nD τ).loc main_arg1)
abbrev a3 : S100000.Idx → Elt Ideal .i32 := m ((c : Thread nD τ).loc main_arg3)
abbrev a4 : S64.Idx → Elt Ideal .f32 := m ((c : Thread nD τ).loc main_arg4)
abbrev a5 : S64x9.Idx → Elt Ideal .f32 := m ((c : Thread nD τ).loc main_arg5)
abbrev a6 : S64.Idx → Elt Ideal .f32 := m ((c : Thread nD τ).loc main_arg6)
abbrev a7 : S64x9.Idx → Elt Ideal .f32 := m ((c : Thread nD τ).loc main_arg7)
abbrev a8 : S64x64.Idx → Elt Ideal .f32 := m ((c : Thread nD τ).loc main_arg8)
abbrev a9 : S64.Idx → Elt Ideal .f32 := m ((c : Thread nD τ).loc main_arg9)
abbrev a10 : S64x64.Idx → Elt Ideal .f32 := m ((c : Thread nD τ).loc main_arg10)
abbrev a11 : S32x64.Idx → Elt Ideal .f32 := m ((c : Thread nD τ).loc main_arg11)
abbrev a12 : S32.Idx → Elt Ideal .f32 := m ((c : Thread nD τ).loc main_arg12)
abbrev a13 : S1x32.Idx → Elt Ideal .f32 := m ((c : Thread nD τ).loc main_arg13)
abbrev a14 : S1.Idx → Elt Ideal .f32 := m ((c : Thread nD τ).loc main_arg14)

/-! ## Small layout facts: a transposed matrix, a vector as a row, at an index -/

/-- A `[b, a]` matrix transposed to `[a, b]`, read at `(i, j)`, is the matrix at `(j, i)`. -/
theorem transpose2_apply {a b : Nat} (x : (⟨2, ![b, a]⟩ : Shape).Idx → EReal) (h : (⟨2, ![b, a]⟩ : Shape).Transposes [1, 0] ⟨2, ![a, b]⟩)
    (i : Fin a) (j : Fin b) : transpose ⟨2, ![a, b]⟩ [1, 0] x h (ix2 i j) = x (ix2 j i) :=
  transpose_apply [1, 0] x h (ix2 i j) (ix2 j i) (fun d => match d with
    | ⟨0, _⟩ => rfl
    | ⟨1, _⟩ => rfl)

/-- A vector of `n` entries cast to a `[1, n]` row, read at `(0, j)`, is the vector at `j`. -/
theorem row_apply {n : Nat} (x : (⟨1, ![n]⟩ : Shape).Idx → EReal) (h : (⟨1, ![n]⟩ : Shape).ShapeCasts ⟨2, ![1, n]⟩) (j : Fin n) :
    shapeCast ⟨2, ![1, n]⟩ x h (ix2 (0 : Fin 1) j) = x (ix1 j) :=
  shapeCast_apply x h (ix2 (0 : Fin 1) j) (ix1 j) (by
    rw [Shape.rowMajor_val_one, Shape.rowMajor_val_two]
    show j.val = 0 * n + j.val
    omega)

/-! ## The first call -/

/-- What the first call finds is what the reference's hidden layer is made of. -/
theorem finds0 : Region0.Finds (V1 m ρ) c (a0 m c) (a1 m c) (a5 m c) (a6 m c) (a7 m c) where
  msg n k := by rw [V1_v15]; exact comb1_msg (a0 m c) (a1 m c) n k
  cnt n := by rw [V1_v15]; exact comb1_cnt (a0 m c) (a1 m c) n
  feat := W1_main_arg0 m ρ c
  wl k q := by rw [V1_v17]; exact transpose2_apply _ _ k q
  bias q := by rw [V1_v19]; exact row_apply _ _ q
  wr k q := by rw [V1_v18]; exact transpose2_apply _ _ k q

/-- The first call leaves the reference's hidden layer in its result array. -/
theorem hidden : (W2 m ρ c (Proc.devRef .tc main_v20) : S100000x64.Idx → Elt Ideal .f32)
    = val_main_v31 (F := Ideal) (a0 m c) (a1 m c) (a5 m c) (a6 m c) (a7 m c) :=
  (W2_arr m ρ c 5).trans (Region0.final (V1 m ρ) (finds0 m ρ c))

/-! ## The second call -/

/-- The flattened edge rows and the in-degree column, untouched by the first call. -/
theorem W2_v1 : (W2 m ρ c (Proc.devRef .tc main_v1) : S3200000.Idx → Elt Ideal .i32) = srcRaw (a1 m c) :=
  (W2_of_ne m ρ c main_v1 (by decide)).trans (W1_v1 m ρ c)
theorem W2_v3 : (W2 m ρ c (Proc.devRef .tc main_v3) : S3200000.Idx → Elt Ideal .i32) = dstRaw (a1 m c) :=
  (W2_of_ne m ρ c main_v3 (by decide)).trans (W1_v3 m ρ c)
theorem W2_v16 : (W2 m ρ c (Proc.devRef .tc main_v16) : S100000x1.Idx → Elt Ideal .f32) = cntCol (comb1 (a0 m c) (a1 m c)) :=
  (W2_of_ne m ρ c main_v16 (by decide)).trans (W1_v16 m ρ c)

/-- Window 0's array at the second call's entry, over the arguments: the layer-two aggregate of the reference's hidden layer
    beside the in-degree column. -/
theorem V3_v31' : (V3 m ρ c main_v31 : S100000x65.Idx → Elt Ideal .f32)
    = comb2 (val_main_v31 (F := Ideal) (a0 m c) (a1 m c) (a5 m c) (a6 m c) (a7 m c)) (srcRaw (a1 m c)) (dstRaw (a1 m c)) (cntCol (comb1 (a0 m c) (a1 m c))) := by
  rw [V3_v31, hidden, W2_v1, W2_v3, W2_v16]

/-- What the second call finds is what the reference's logit is made of. -/
theorem finds1 : Region1.Finds (V3 m ρ) c (a0 m c) (a1 m c) (a5 m c) (a6 m c) (a7 m c) (a8 m c) (a9 m c) (a10 m c) (a11 m c) (a12 m c) (a13 m c) (a14 m c) where
  msg n k := by rw [V3_v31']; exact comb2_msg (a0 m c) (a1 m c) (a5 m c) (a6 m c) (a7 m c) _ n k
  cnt n := by
    rw [V3_v31', comb2_cnt, cntCol_apply, comb1_cnt, cnt2_eq]
  hid := by rw [V3_v20]; exact hidden m ρ c
  wl a j := by rw [V3_v32, W2_main_arg8]; exact transpose2_apply _ _ a j
  bias j := by rw [V3_v36, W2_main_arg9]; exact row_apply _ _ j
  wr a j := by rw [V3_v33, W2_main_arg10]; exact transpose2_apply _ _ a j
  w1 j k := by rw [V3_v34, W2_main_arg11]; exact transpose2_apply _ _ j k
  b1 k := by rw [V3_v37, W2_main_arg12]; exact row_apply _ _ k
  w2 k := by rw [V3_v35, W2_main_arg13]; exact transpose2_apply _ _ k (0 : Fin 1)
  b2 := by rw [V3_v38, W2_main_arg14]; exact row_apply _ _ (0 : Fin 1)

/-- The second call leaves the logistic function of the reference's logit in its result column. -/
theorem piArr : (W4 m ρ c (Proc.devRef .tc main_v39) : S100000x1.Idx → Elt Ideal .f32)
    = Region1.piCol (a0 m c) (a1 m c) (a5 m c) (a6 m c) (a7 m c) (a8 m c) (a9 m c) (a10 m c) (a11 m c) (a12 m c) (a13 m c) (a14 m c) :=
  (W4_arr m ρ c 9).trans (Region1.final (V3 m ρ) (finds1 m ρ c))

/-! ## The last stretch -/

/-- The result column flattened is the reference's per-node value. -/
theorem pi_flat : shapeCast S100000 (Region1.piCol (a0 m c) (a1 m c) (a5 m c) (a6 m c) (a7 m c) (a8 m c) (a9 m c) (a10 m c) (a11 m c) (a12 m c) (a13 m c) (a14 m c)) shapeCasts_S100000x1_S100000
    = val_main_v76 (F := Ideal) (a0 m c) (a1 m c) (a5 m c) (a6 m c) (a7 m c) (a8 m c) (a9 m c) (a10 m c) (a11 m c) (a12 m c) (a13 m c) (a14 m c) := by
  funext n
  refine (shapeCast_apply _ shapeCasts_S100000x1_S100000 n (ix2 (n 0) (0 : Fin 1)) ?_).trans ?_
  · rw [Shape.rowMajor_val_one, Shape.rowMajor_val_two]
    show (n 0).val * 1 + 0 = (n 0).val
    omega
  · exact (pi_at (a0 m c) (a1 m c) (a5 m c) (a6 m c) (a7 m c) (a8 m c) (a9 m c) (a10 m c) (a11 m c) (a12 m c) (a13 m c) (a14 m c) n).symm

/-- The kernel program's last stretch over the reference's per-node value is the reference's result: the budget over the
    graph's total plus the constant, capped at one, read back at a node's graph, is the read-back budget over the read-back total
    plus the constant, capped at one. -/
theorem tail_eq : tail (Region1.piCol (a0 m c) (a1 m c) (a5 m c) (a6 m c) (a7 m c) (a8 m c) (a9 m c) (a10 m c) (a11 m c) (a12 m c) (a13 m c) (a14 m c)) (a3 m c) (a4 m c)
    = val_main_v99 (F := Ideal) (a0 m c) (a1 m c) (a3 m c) (a4 m c) (a5 m c) (a6 m c) (a7 m c) (a8 m c) (a9 m c) (a10 m c) (a11 m c) (a12 m c) (a13 m c) (a14 m c) := by
  unfold tail
  rw [pi_flat]
  rfl

/-- THE RESULT BUFFER of the kernel program is the reference's result term of the same arguments. -/
theorem result_eq : (W5 m ρ c (Proc.devRef .tc main_v56) : S100000.Idx → Elt Ideal .f32)
    = val_main_v99 (F := Ideal) (a0 m c) (a1 m c) (a3 m c) (a4 m c) (a5 m c) (a6 m c) (a7 m c) (a8 m c) (a9 m c) (a10 m c) (a11 m c) (a12 m c) (a13 m c) (a14 m c) := by
  rw [W5_v56, piArr, W4_main_arg3, W4_main_arg4]
  exact tail_eq m c

end Cert.Bridge

end
-- ==== Proof.lean ====
/-
  A two-layer GraphSAGE network with a two-layer readout, a logistic output and a per-graph budget ratio: the Pallas program
  against its jnp reference, over the extended reals.

  Both programs compute, per node `n`, `pi n * min (B g / (T g + ε)) 1` with `g` the node's graph, `T g` the sum of `pi` over the
  graph's nodes, and `pi` the logistic function of the readout of the second SAGE layer. The reference does every step on the
  host. The kernel program does the two gathers and three scatter-adds on the host and the dense chain in two pallas_calls
  over 20 row blocks of 5000 nodes; it differs from the reference in three places, none of which changes a value over the
  extended reals: (1) layer one's neighbour sums and in-degree come from ONE scatter-add of the rows `[x[src] | 1]` — a row
  scatter-add sees its columns apart, so column `k < 9` is the reference's 9-column sum and column 9 its count
  (`Proof/LibScatterRows.lean`, `Proof/Comb.lean`); (2) the dense chain is computed block by block with the unit's matrix product
  into a zero accumulator, which at an entry is the reference's `dot_general` sum (`Proof/LibMatmulRows.lean`, `Proof/Pay.lean`,
  `Proof/RefRead.lean`), each block being the restriction of one whole-array function (`Proof/Region0.lean`,
  `Proof/Region1.lean`); the kernel's logistic operation is jax's `1 / (1 + exp (-x))`; (3) the budget ratio is computed per
  graph and then read back at each node's graph, where the reference reads back first: a gather commutes with an entrywise
  operation (`Proof/Final.lean`). No law used needs finiteness, so the precondition is never opened.

  The frames of the two kernel programs are the generated ones; the reference's frame and value are its generated run; the
  kernel program's value is the generated launch theorem called again with the result buffer named (`Proof/KRun.lean`) and the
  host stretches read back (`Proof/HostV1.lean` …); `preserves` is `True` (the ideal pass rewrote nothing).
-/
import proofs.«415095_j82609400971333_3_alg».proof.Defs
import proofs.«415095_j82609400971333_3_alg».proof.Proof.Gen.Kernel
import proofs.«415095_j82609400971333_3_alg».proof.Proof.Gen.Kernel.Skeleton
import proofs.«415095_j82609400971333_3_alg».proof.Proof.Gen.Kernel.Launch
import proofs.«415095_j82609400971333_3_alg».proof.Proof.Gen.Kernel.Points
import proofs.«415095_j82609400971333_3_alg».proof.Proof.Gen.Kernel.Frame
import proofs.«415095_j82609400971333_3_alg».proof.Proof.Gen.KernelIdeal
import proofs.«415095_j82609400971333_3_alg».proof.Proof.Gen.KernelIdeal.Skeleton
import proofs.«415095_j82609400971333_3_alg».proof.Proof.Gen.KernelIdeal.Launch
import proofs.«415095_j82609400971333_3_alg».proof.Proof.Gen.KernelIdeal.Points
import proofs.«415095_j82609400971333_3_alg».proof.Proof.Gen.KernelIdeal.Frame
import proofs.«415095_j82609400971333_3_alg».proof.Proof.Gen.ReferenceIdeal
import proofs.«415095_j82609400971333_3_alg».proof.Proof.Gen.Pre_finite_inputs
import proofs.«415095_j82609400971333_3_alg».proof.Proof.Gen.ReferenceIdeal.Run
import proofs.«415095_j82609400971333_3_alg».proof.Proof.Gen.ReferenceIdeal.Read
import proofs.«415095_j82609400971333_3_alg».proof.Proof.KRun
import proofs.«415095_j82609400971333_3_alg».proof.Proof.Final
import Idealize.ShloMosaic.Adequacy
import Idealize.ShloMosaic.Init

noncomputable section

namespace Cert.Proof

open Idealize.ShloMosaic Idealize.SL.Sem

/-- The word-level kernel program runs and keeps its arguments: the generated frame. -/
theorem frame_k : Cert.frame_Kernel (hKernel := Cert.Kernel.Gen.facts) (hPre_finite_inputs := Cert.Pre_finite_inputs.Gen.facts) :=
  fun m ρ _ => Cert.Kernel.Gen.frame m ρ

/-- The idealized kernel program runs and keeps its arguments: the generated frame. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The idealized reference runs and keeps its arguments: its generated run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories agreeing on the arguments both idealized programs end with the reference's result term of those arguments:
    the kernel program by the run with its result named and the chain of `Proof/Final.lean`, the reference by its generated run. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.ReferenceIdeal.Read.val_main_v99 (F := Ideal) (Cert.Bridge.a0 m c) (Cert.Bridge.a1 m c) (Cert.Bridge.a3 m c) (Cert.Bridge.a4 m c) (Cert.Bridge.a5 m c) (Cert.Bridge.a6 m c) (Cert.Bridge.a7 m c) (Cert.Bridge.a8 m c) (Cert.Bridge.a9 m c) (Cert.Bridge.a10 m c) (Cert.Bridge.a11 m c) (Cert.Bridge.a12 m c) (Cert.Bridge.a13 m c) (Cert.Bridge.a14 m c), ?_, ?_⟩
  · exact (θ_run Cert.KernelIdeal.defs _ _).mono (fun r h c => ⟨(h c).1.trans (Cert.Bridge.result_eq m ρ c), (h c).2⟩)
      (Cert.KernelIdeal.Gen.run_value m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v99_eq, (hagree c).1, (hagree c).2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
